-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S128x128 : Shape := ⟨2, ![128, 128]⟩
abbrev S128 : Shape := ⟨1, ![128]⟩
abbrev S8 : Shape := ⟨1, ![8]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S128 .f32) (main_arg8 : FVec F S8 .f32) (main_arg9 : FVec F S8 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S8 .f32) (main_arg9 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S50000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S8 .f32) (main_arg9 : FVec F S8 .f32) (main_arg10 : IVec S800000 32) (main_arg11 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S50000 : Shape := ⟨1, ![50000]⟩
abbrev S128x128 : Shape := ⟨2, ![128, 128]⟩
abbrev S128 : Shape := ⟨1, ![128]⟩
abbrev S8 : Shape := ⟨1, ![8]⟩
abbrev S800000 : Shape := ⟨1, ![800000]⟩
abbrev S1x128 : Shape := ⟨2, ![1, 128]⟩
abbrev S5000x128 : Shape := ⟨2, ![5000, 128]⟩
abbrev S8x16 : Shape := ⟨2, ![8, 16]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S4000x128 : Shape := ⟨2, ![4000, 128]⟩
abbrev S4000x16 : Shape := ⟨2, ![4000, 16]⟩
abbrev S4000 : Shape := ⟨1, ![4000]⟩
abbrev S4000x1 : Shape := ⟨2, ![4000, 1]⟩
abbrev S50000x8x16 : Shape := ⟨3, ![50000, 8, 16]⟩

abbrev nBuf : Space → Nat
  | .hbm => 78
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S8, .f32⟩
  | .hbm, ⟨9, _⟩ => ⟨S8, .f32⟩
  | .hbm, ⟨10, _⟩ => ⟨S800000, .i32⟩
  | .hbm, ⟨11, _⟩ => ⟨S800000, .i32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S8x16, .f32⟩
  | .hbm, ⟨19, _⟩ => ⟨S128, .f32⟩
  | .hbm, ⟨20, _⟩ => ⟨S8x16, .f32⟩
  | .hbm, ⟨21, _⟩ => ⟨S128, .f32⟩
  | .hbm, ⟨22, _⟩ => ⟨S50000x1, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .f32⟩
  | .hbm, ⟨77, _⟩ => ⟨S50000x8x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_cst : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S8_S8x16_0 : S8.BroadcastsInDim S8x16 (![0] : Fin 1 → Fin S8x16.rank)
  shapeCasts_S8x16_S128 : S8x16.ShapeCasts S128
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x16 : S4000x128.Slices ![0, 0] S4000x16
  reduces_S4000x16_S4000 : S4000x16.Reduces [1] S4000
  shapeCasts_S4000_S4000x1 : S4000.ShapeCasts S4000x1
  shapeCasts_S4000x1_S4000x1 : S4000x1.ShapeCasts S4000x1
  broadcasts_S4000x1_S4000x16 : S4000x1.Broadcasts S4000x16
  slices_S4000x128_o0_16_S4000x16 : S4000x128.Slices ![0, 16] S4000x16
  slices_S4000x128_o0_32_S4000x16 : S4000x128.Slices ![0, 32] S4000x16
  slices_S4000x128_o0_48_S4000x16 : S4000x128.Slices ![0, 48] S4000x16
  slices_S4000x128_o0_64_S4000x16 : S4000x128.Slices ![0, 64] S4000x16
  slices_S4000x128_o0_80_S4000x16 : S4000x128.Slices ![0, 80] S4000x16
  slices_S4000x128_o0_96_S4000x16 : S4000x128.Slices ![0, 96] S4000x16
  slices_S4000x128_o0_112_S4000x16 : S4000x128.Slices ![0, 112] S4000x16
  concatenates_S4000x16_S4000x16_S4000x16_S4000x16_S4000x16_S4000x16_S4000x16_S4000x16_S4000x128_d1 : Shape.Concatenates [S4000x16, S4000x16, S4000x16, S4000x16, S4000x16, S4000x16, S4000x16, S4000x16] S4000x128 1
  bcast_S_S50000x128 : S_.BroadcastsInDim S50000x128 (![] : Fin 0 → Fin S50000x128.rank)
  shapeCasts_S50000x128_S50000x8x16 : S50000x128.ShapeCasts S50000x8x16
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S800000x128.size a
  hwx1_3 : ∀ i : grid1.Coords, EltTy.bits .f32 = 32 ∨ (Rect.block (s := S800000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S800000x128.size a
  hwx1_4 : ∀ i : grid1.Coords, EltTy.bits .f32 = 32 ∨ (Rect.block (s := S800000x128) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000 : Shape := ⟨1, ![50000]⟩
abbrev S128x128 : Shape := ⟨2, ![128, 128]⟩
abbrev S128 : Shape := ⟨1, ![128]⟩
abbrev S8 : Shape := ⟨1, ![8]⟩
abbrev S800000 : Shape := ⟨1, ![800000]⟩
abbrev S1x128 : Shape := ⟨2, ![1, 128]⟩
abbrev S50000x8x16 : Shape := ⟨3, ![50000, 8, 16]⟩
abbrev S50000x1 : Shape := ⟨2, ![50000, 1]⟩
abbrev S1x8 : Shape := ⟨2, ![1, 8]⟩
abbrev S50000x8 : Shape := ⟨2, ![50000, 8]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S8, .f32⟩
  | .hbm, ⟨9, _⟩ => ⟨S8, .f32⟩
  | .hbm, ⟨10, _⟩ => ⟨S800000, .i32⟩
  | .hbm, ⟨11, _⟩ => ⟨S800000, .i32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S50000x1, .f32⟩
  | .hbm, ⟨28, _⟩ => ⟨S1x8, .f32⟩
  | .hbm, ⟨29, _⟩ => ⟨S50000x8, .f32⟩
  | .hbm, ⟨30, _⟩ => ⟨S50000x8, .f32⟩
  | .hbm, ⟨31, _⟩ => ⟨S50000x8, .f32⟩
  | .hbm, ⟨32, _⟩ => ⟨S1x8, .f32⟩
  | .hbm, ⟨33, _⟩ => ⟨S50000x8, .f32⟩
  | .hbm, ⟨34, _⟩ => ⟨S50000x8, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x8x16, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x8x16, .f32⟩
  | .hbm, ⟨53, _⟩ => ⟨S800000x8x16, .f32⟩
  | .hbm, ⟨54, _⟩ => ⟨S_, .f32⟩
  | .hbm, ⟨55, _⟩ => ⟨S800000x8, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x8, .f32⟩
  | .hbm, ⟨65, _⟩ => ⟨S800000x8, .f32⟩
  | .hbm, ⟨66, _⟩ => ⟨S_, .f32⟩
  | .hbm, ⟨67, _⟩ => ⟨S800000x8, .f32⟩
  | .hbm, ⟨68, _⟩ => ⟨S800000x8, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S800000x8, .f32⟩
  | .hbm, ⟨73, _⟩ => ⟨S800000x8, .f32⟩
  | .hbm, ⟨74, _⟩ => ⟨S_, .f32⟩
  | .hbm, ⟨75, _⟩ => ⟨S800000x8, .f32⟩
  | .hbm, ⟨76, _⟩ => ⟨S800000x8, .f32⟩
  | .hbm, ⟨77, _⟩ => ⟨S800000x8, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x8x16, .f32⟩
  | .hbm, ⟨87, _⟩ => ⟨S800000x8x1, .f32⟩
  | .hbm, ⟨88, _⟩ => ⟨S800000x8x16, .f32⟩
  | .hbm, ⟨89, _⟩ => ⟨S800000x8x16, .f32⟩
  | .hbm, ⟨90, _⟩ => ⟨S_, .f32⟩
  | .hbm, ⟨91, _⟩ => ⟨S50000x8x16, .f32⟩
  | .hbm, ⟨92, _⟩ => ⟨S800000x1, .i32⟩
  | .hbm, ⟨93, _⟩ => ⟨S50000x8x16, .f32⟩
  | .hbm, ⟨94, _⟩ => ⟨S_, .f32⟩
  | .hbm, ⟨95, _⟩ => ⟨S50000x8, .f32⟩
  | .hbm, ⟨96, _⟩ => ⟨S800000x1, .i32⟩
  | .hbm, ⟨97, _⟩ => ⟨S50000x8, .f32⟩
  | .hbm, ⟨98, _⟩ => ⟨S50000x8x1, .f32⟩
  | .hbm, ⟨99, _⟩ => ⟨S50000x8x16, .f32⟩
  | .hbm, ⟨100, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_1 : Ref sig .tc := ⟨.hbm, 44, rfl⟩
abbrev main_v30 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_c_3 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v49 : Ref sig .tc := ⟨.hbm, 76, rfl⟩
abbrev main_v50 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S50000_S50000x1_0 : S50000.BroadcastsInDim S50000x1 (![0] : Fin 1 → Fin S50000x1.rank)
  bcast_S8_S1x8_1 : S8.BroadcastsInDim S1x8 (![1] : Fin 1 → Fin S1x8.rank)
  bcast_S50000x1_S50000x8_0_1 : S50000x1.BroadcastsInDim S50000x8 (![0, 1] : Fin 2 → Fin S50000x8.rank)
  bcast_S1x8_S50000x8_0_1 : S1x8.BroadcastsInDim S50000x8 (![0, 1] : Fin 2 → Fin S50000x8.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S_S800000x8 : S_.BroadcastsInDim S800000x8 (![] : Fin 0 → Fin S800000x8.rank)
  bcast_S800000x8_S800000x8x1_0_1 : S800000x8.BroadcastsInDim S800000x8x1 (![0, 1] : Fin 2 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  gather_S50000x8_S800000x1_S800000x8_1_0_n_n_0_1_18_wf : GatherDims.WF S50000x8 S800000x1 S800000x8 [1] [0] [] [0] [] 1 ![1, 8]
  scatter_S50000x8x16_S800000x1_S800000x8x16_12_0_0_1_wf : ScatterDims.WF S50000x8x16 S800000x1 S800000x8x16 [1, 2] [0] [0] 1
  scatter_S50000x8_S800000x1_S800000x8_1_0_0_1_wf : ScatterDims.WF S50000x8 S800000x1 S800000x8 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def gather_S50000x8_S800000x1_S800000x8_1_0_n_n_0_1_18 : GatherDims S50000x8 S800000x1 S800000x8 where
  offsetDims := [1]
  collapsedSliceDims := [0]
  operandBatchingDims := []
  startIndicesBatchingDims := []
  startIndexMap := [0]
  indexVectorDim := 1
  sliceSizes := ![1, 8]
  wf := gather_S50000x8_S800000x1_S800000x8_1_0_n_n_0_1_18_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Spec.lean ====
/-
  EDGE ATTENTION WITH SCATTER-SUM AGGREGATION, as one function of the argument arrays, index by index on the extended reals.

  Nodes n < 50000 carry features h[n, ·] (128 wide); edges e < 800000 carry a source word src[e] and a destination word
  dst[e]. With Q = h·Wq + bq, K = h·Wk + bk, V = h·Wv + bv (128 columns, read as 8 heads of 16 lanes), an edge's score in
  head hh is
      score e hh = exp (clip ((Σ_d K[s e, 16 hh + d] · Q[t e, 16 hh + d] + (dis[t e] · aw[hh] + ab[hh])) / 4, -5, 5)),
  where s e and t e are the rows the two gathers read: the word wrapped once when negative, read signed and clamped into
  [0, 49999]. The result at (n, hh, d) is the quotient of
      0 + Σ_{e : dst e = n} V[s e, 16 hh + d] · score e hh      and      0 + Σ_{e : dst e = n} score e hh,
  the sums over the edges whose destination word, read signed and NOT wrapped, is exactly n (an edge whose word is
  outside [0, 50000) contributes to no node).

  Between the arguments and that result stand whole-array stages that both programs compute, each in its own layout:
  the projections (projF), the per-edge scores laid out 128 wide (scF: column j carries head j / 16) and the weighted
  values (wvF). They are stated here generically in the number of rows, so that a block of rows and the whole array are
  instances of one definition.
-/
import Idealize.ShloMosaic.PureOps.Ideal
import Idealize.ShloMosaic.PureOps.Ideal.Laws
import Idealize.ShloMosaic.Lib.ValueIdx
import proofs.«167470_j85504208928874_1_alg».proof.Proof.LibSageSpec

noncomputable section

open scoped BigOperators

namespace Cert.Attn

open Idealize.ShloMosaic Idealize.ShloMosaic.ValueIdx Idealize.ShloMosaic.SageSpec

/-! ## Constants, as the words both programs print -/

/-- The divisor 4 (the square root of the head width 16). -/
def four : EReal := Ideal.ofBits .f32 0x40800000#32
/-- The clip's lower bound, -5. -/
def lo : EReal := Ideal.ofBits .f32 0xC0A00000#32
/-- The clip's upper bound, 5. -/
def hi : EReal := Ideal.ofBits .f32 0x40A00000#32
/-- The zero the scatter-sums start from. -/
def zero : EReal := Ideal.ofBits .f32 0x00000000#32

/-- What the score does to a logit: divide by 4, clip into [-5, 5], exponentiate. -/
def act (x : EReal) : EReal := Ideal.exp (min hi (max lo (Ideal.div x four)))

/-! ## Heads and lanes -/

/-- Column 16·hh + d of a 128-wide row: lane d of head hh. -/
def col (hh : Fin 8) (d : Fin 16) : Fin 128 := ⟨16 * hh.val + d.val, by omega⟩

/-- The head a column belongs to. -/
def headOf (j : Fin 128) : Fin 8 := ⟨j.val / 16, by omega⟩

/-- The lane of a column inside its head. -/
def laneOf (j : Fin 128) : Fin 16 := ⟨j.val % 16, Nat.mod_lt _ (by decide)⟩

theorem headOf_col (hh : Fin 8) (d : Fin 16) : headOf (col hh d) = hh := by
  apply Fin.ext; show (16 * hh.val + d.val) / 16 = hh.val; omega

theorem laneOf_col (hh : Fin 8) (d : Fin 16) : laneOf (col hh d) = d := by
  apply Fin.ext; show (16 * hh.val + d.val) % 16 = d.val; omega

theorem col_head_lane (j : Fin 128) : col (headOf j) (laneOf j) = j := by
  apply Fin.ext; show 16 * (j.val / 16) + j.val % 16 = j.val; omega

/-! ## The whole-array stages -/

/-- A projection x·W + b with the bias a [1, 128] row, as an [R, 128] array. -/
def projF {R : Nat} (x : Mat R 128) (W : Mat 128 128) (b : Mat 1 128) : Mat R 128 :=
  fun i => rowDot x W (i 0) (i 1) + b (ix2 (0 : Fin 1) (i 1))

/-- The scores laid out 128 wide: at (r, j), with hh the head of column j, the activation of the sum over the 16 lanes
    of head hh of Kg · Qg in row r, plus the bias at (r, j). -/
def scF {R : Nat} (Kg Qg Bg : Mat R 128) : Mat R 128 :=
  fun i => act ((∑ d : Fin 16, Kg (ix2 (i 0) (col (headOf (i 1)) d)) * Qg (ix2 (i 0) (col (headOf (i 1)) d))) + Bg i)

/-- The weighted values: Vg times the score, element by element. -/
def wvF {R : Nat} (Kg Qg Vg Bg : Mat R 128) : Mat R 128 :=
  fun i => Vg i * scF Kg Qg Bg i

/-! ## The rows the gathers read and the result -/

/-- NumPy's wrap of a possibly negative row word: w + 50000 when w is negative, else w. -/
def wrapW (w : BitVec 32) : BitVec 32 := Scalar.select (IntOp.cmpi .slt w 0#32) (IntOp.addi w 50000#32) w

/-- The row a gather reads for the word w: wrapped, read signed, clamped into [0, 49999]. -/
def rowOf (w : BitVec 32) : Fin 50000 := ⟨min (wrapW w).toInt.toNat (50000 - 1), by omega⟩

section
variable (h : Mat 50000 128) (dis : Fin 50000 → EReal) (Wq Wk Wv : Mat 128 128) (bq bk bv : Fin 128 → EReal)
  (aw ab : Fin 8 → EReal) (src dst : Fin 800000 → BitVec 32)

/-- A projection's entry: row n of h against column j of W, plus b[j]. -/
def lin (W : Mat 128 128) (b : Fin 128 → EReal) (n : Fin 50000) (j : Fin 128) : EReal := rowDot h W n j + b j

/-- The logit of edge e in head hh. -/
def logit (e : Fin 800000) (hh : Fin 8) : EReal :=
  (∑ d : Fin 16, lin h Wk bk (rowOf (src e)) (col hh d) * lin h Wq bq (rowOf (dst e)) (col hh d))
    + (dis (rowOf (dst e)) * aw hh + ab hh)

/-- The score of edge e in head hh. -/
def score (e : Fin 800000) (hh : Fin 8) : EReal := act (logit h dis Wq Wk bq bk aw ab src dst e hh)

/-- The edges that land on node n: those whose destination word, read signed, is n. -/
def into (n : Fin 50000) : Finset (Fin 800000) := Finset.univ.filter (fun e => (dst e).toInt = (n.val : ℤ))

/-- THE RESULT at (n, hh, d). -/
def out (n : Fin 50000) (hh : Fin 8) (d : Fin 16) : EReal :=
  Ideal.div
    (zero + ∑ e ∈ into dst n, lin h Wv bv (rowOf (src e)) (col hh d) * score h dis Wq Wk bq bk aw ab src dst e hh)
    (zero + ∑ e ∈ into dst n, score h dis Wq Wk bq bk aw ab src dst e hh)

end

/-- THE RESULT as a [50000, 8, 16] array of the argument arrays as the programs hold them (rank-1 arrays read at their one
    coordinate), in the order of the programs' parameters. -/
def outArr (h : Mat 50000 128) (dis : (⟨1, ![50000]⟩ : Shape).Idx → EReal) (Wq : Mat 128 128)
    (bq : (⟨1, ![128]⟩ : Shape).Idx → EReal) (Wk : Mat 128 128) (bk : (⟨1, ![128]⟩ : Shape).Idx → EReal) (Wv : Mat 128 128)
    (bv : (⟨1, ![128]⟩ : Shape).Idx → EReal) (aw ab : (⟨1, ![8]⟩ : Shape).Idx → EReal) (src dst : IVec ⟨1, ![800000]⟩ 32) :
    (⟨3, ![50000, 8, 16]⟩ : Shape).Idx → EReal :=
  fun i => out h (fun n => dis (ix1 n)) Wq Wk Wv (fun j => bq (ix1 j)) (fun j => bk (ix1 j)) (fun j => bv (ix1 j))
    (fun a => aw (ix1 a)) (fun a => ab (ix1 a)) (fun e => src (ix1 e)) (fun e => dst (ix1 e)) (i 0) (i 1) (i 2)

end Cert.Attn

end
-- ==== Proof.KernelTerm.lean ====
/-
  THE KERNEL PROGRAM'S HOST SIDE AS ONE TERM. Around its two kernel regions the program computes, with host operations:
  the three bias rows reshaped to [1, 128]; the per-node bias dis·aw + ab laid out 128 wide (each head's pair of numbers
  repeated over its 16 lanes); the four row gathers at the wrapped source and destination words; and, after the second
  region, the two scatter-sums from zero at the unwrapped destination words, their quotient, and the reshape to
  [50000, 8, 16]. With the two regions' arrays taken as the whole-array stages projF, scF and wvF, the result is the term
  kernelTerm below: the operations are the printed ones, over the printed dimension records.
-/
import proofs.«167470_j85504208928874_1_alg».proof.KernelIdeal
import proofs.«167470_j85504208928874_1_alg».proof.Proof.Gen.KernelIdeal
import proofs.«167470_j85504208928874_1_alg».proof.Proof.Spec
import Idealize.ShloMosaic.PureOps.Ideal

noncomputable section

namespace Cert.Attn.K

open Idealize.ShloMosaic Idealize.ShloMosaic.ValueIdx Idealize.ShloMosaic.SageSpec Cert.KernelIdeal Cert.KernelIdeal.Facts₀ Cert.Attn

/-- A row-index array as the gathers take it: each word wrapped once when negative (w + 50000), laid out [800000, 1]. -/
abbrev wrapCol (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- The rows of a [50000, 128] table at the wrapped words. -/
abbrev gatherRows (x : FVec Ideal S50000x128 .f32) (w : IVec S800000 32) : FVec Ideal S800000x128 .f32 :=
  Host.gather gather_S50000x128_S800000x1_S800000x128_1_0_n_n_0_1_1128 x (wrapCol w)

/-- A [128] bias as the [1, 128] row the projection kernel loads. -/
abbrev biasRow (b : FVec Ideal S128 .f32) : FVec Ideal S1x128 .f32 := shapeCast S1x128 b shapeCasts_S128_S1x128

/-- A per-head vector repeated over the 16 lanes of each head: [8] → [8, 16] → [128]. -/
abbrev lanes (a : FVec Ideal S8 .f32) : FVec Ideal S128 .f32 :=
  shapeCast S128 (broadcastInDim S8x16 ![0] bcast_S8_S8x16_0 a) shapeCasts_S8x16_S128

/-- The per-node bias laid out 128 wide: dis[n] · aw[head of j] + ab[head of j]. -/
abbrev biasE (dis : FVec Ideal S50000 .f32) (aw ab : FVec Ideal S8 .f32) : FVec Ideal S50000x128 .f32 :=
  addf
    (mulf
      (broadcastInDim S50000x128 ![0, 1] bcast_S50000x1_S50000x128_0_1 (broadcastInDim S50000x1 ![0] bcast_S50000_S50000x1_0 dis))
      (broadcastInDim S50000x128 ![0, 1] bcast_S1x128_S50000x128_0_1 (broadcastInDim S1x128 ![1] bcast_S128_S1x128_1 (lanes aw))))
    (broadcastInDim S50000x128 ![0, 1] bcast_S1x128_S50000x128_0_1 (broadcastInDim S1x128 ![1] bcast_S128_S1x128_1 (lanes ab)))

/-- The two scatter-sums from zero at the destination words (not wrapped), their quotient, reshaped to [50000, 8, 16]. -/
abbrev tail (dst : IVec S800000 32) (wv sc : FVec Ideal S800000x128 .f32) : FVec Ideal S50000x8x16 .f32 :=
  shapeCast S50000x8x16
    (Host.divf
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 dst) wv)
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 dst) sc))
    shapeCasts_S50000x128_S50000x8x16

/-- THE KERNEL PROGRAM'S RESULT as a term of the argument arrays: the regions' arrays at projF, scF and wvF. -/
def kernelTerm (h : FVec Ideal S50000x128 .f32) (dis : FVec Ideal S50000 .f32) (Wq : FVec Ideal S128x128 .f32)
    (bq : FVec Ideal S128 .f32) (Wk : FVec Ideal S128x128 .f32) (bk : FVec Ideal S128 .f32) (Wv : FVec Ideal S128x128 .f32)
    (bv : FVec Ideal S128 .f32) (aw ab : FVec Ideal S8 .f32) (src dst : IVec S800000 32) : FVec Ideal S50000x8x16 .f32 :=
  tail dst
    (wvF (gatherRows (projF h Wk (biasRow bk)) src) (gatherRows (projF h Wq (biasRow bq)) dst)
      (gatherRows (projF h Wv (biasRow bv)) src) (gatherRows (biasE dis aw ab) dst))
    (scF (gatherRows (projF h Wk (biasRow bk)) src) (gatherRows (projF h Wq (biasRow bq)) dst)
      (gatherRows (biasE dis aw ab) dst))

end Cert.Attn.K

end
-- ==== Proof.KernelHost.lean ====
/-
  THE KERNEL PROGRAM'S BUFFERS AT EACH BOUNDARY OF ITS RUN, READ WHERE THE RESULT NEEDS THEM.

  The run passes five boundaries: the launch memory; after the three bias reshapes (where the projection region is
  entered); after that region; after the gathers and the per-node bias (where the edge region is entered); after that
  region; and after the scatter-sums, the quotient and the reshape. An argument array is written by nothing, so it holds
  its launch contents at every boundary; a host operation's result is that operation of its operands' contents at the
  boundary before its stretch; a region's output array is what the region's proof data say its write-backs leave.
-/
import proofs.«167470_j85504208928874_1_alg».proof.Proof.FrameKernelIdeal
import proofs.«167470_j85504208928874_1_alg».proof.Proof.KernelTerm

set_option maxRecDepth 16384

noncomputable section

namespace Cert.Attn.K

open Idealize.ShloMosaic Idealize.ShloMosaic.TcCoe Idealize.ShloMosaic.Tactic
open Idealize.SL Idealize.SL.Sem
open Cert.KernelIdeal Cert.KernelIdeal.Facts₀ Cert.KernelIdeal.GenP Cert.KernelIdeal.Gen Cert.Attn

variable (m : (ℓ : Loc nD τ sig) → Buf (Elt Ideal) ℓ) (ρ : Dev nD → PrngReg)

/-- A buffer that no operation of a stretch writes holds after the stretch what it held before. -/
macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Entering the projection region: the launch memory, the three bias rows reshaped -/

theorem W1_arg0 (c : Dev nD) : W1 (F := Ideal) m ρ c (Proc.devRef .tc main_arg0) = m ((c : Thread nD τ).loc main_arg0) := by
  show StableHlo.after hostOps0 (W0 m ρ c) (Proc.devRef .tc main_arg0) = _
  unwritten hostOps0

theorem W1_arg2 (c : Dev nD) : W1 (F := Ideal) m ρ c (Proc.devRef .tc main_arg2) = m ((c : Thread nD τ).loc main_arg2) := by
  show StableHlo.after hostOps0 (W0 m ρ c) (Proc.devRef .tc main_arg2) = _
  unwritten hostOps0

theorem W1_arg4 (c : Dev nD) : W1 (F := Ideal) m ρ c (Proc.devRef .tc main_arg4) = m ((c : Thread nD τ).loc main_arg4) := by
  show StableHlo.after hostOps0 (W0 m ρ c) (Proc.devRef .tc main_arg4) = _
  unwritten hostOps0

theorem W1_arg6 (c : Dev nD) : W1 (F := Ideal) m ρ c (Proc.devRef .tc main_arg6) = m ((c : Thread nD τ).loc main_arg6) := by
  show StableHlo.after hostOps0 (W0 m ρ c) (Proc.devRef .tc main_arg6) = _
  unwritten hostOps0

theorem W1_arg1 (c : Dev nD) : W1 (F := Ideal) m ρ c (Proc.devRef .tc main_arg1) = m ((c : Thread nD τ).loc main_arg1) := by
  show StableHlo.after hostOps0 (W0 m ρ c) (Proc.devRef .tc main_arg1) = _
  unwritten hostOps0

theorem W1_arg8 (c : Dev nD) : W1 (F := Ideal) m ρ c (Proc.devRef .tc main_arg8) = m ((c : Thread nD τ).loc main_arg8) := by
  show StableHlo.after hostOps0 (W0 m ρ c) (Proc.devRef .tc main_arg8) = _
  unwritten hostOps0

theorem W1_arg9 (c : Dev nD) : W1 (F := Ideal) m ρ c (Proc.devRef .tc main_arg9) = m ((c : Thread nD τ).loc main_arg9) := by
  show StableHlo.after hostOps0 (W0 m ρ c) (Proc.devRef .tc main_arg9) = _
  unwritten hostOps0

theorem W1_arg10 (c : Dev nD) : W1 (F := Ideal) m ρ c (Proc.devRef .tc main_arg10) = m ((c : Thread nD τ).loc main_arg10) := by
  show StableHlo.after hostOps0 (W0 m ρ c) (Proc.devRef .tc main_arg10) = _
  unwritten hostOps0

theorem W1_arg11 (c : Dev nD) : W1 (F := Ideal) m ρ c (Proc.devRef .tc main_arg11) = m ((c : Thread nD τ).loc main_arg11) := by
  show StableHlo.after hostOps0 (W0 m ρ c) (Proc.devRef .tc main_arg11) = _
  unwritten hostOps0

theorem W1_v0 (c : Dev nD) : W1 (F := Ideal) m ρ c (Proc.devRef .tc main_v0) = biasRow (m ((c : Thread nD τ).loc main_arg3)) := by
  show StableHlo.after hostOps0 (W0 m ρ c) (Proc.devRef .tc main_v0) = _
  after_results
  rfl

theorem W1_v1 (c : Dev nD) : W1 (F := Ideal) m ρ c (Proc.devRef .tc main_v1) = biasRow (m ((c : Thread nD τ).loc main_arg5)) := by
  show StableHlo.after hostOps0 (W0 m ρ c) (Proc.devRef .tc main_v1) = _
  after_results
  rfl

theorem W1_v2 (c : Dev nD) : W1 (F := Ideal) m ρ c (Proc.devRef .tc main_v2) = biasRow (m ((c : Thread nD τ).loc main_arg7)) := by
  show StableHlo.after hostOps0 (W0 m ρ c) (Proc.devRef .tc main_v2) = _
  after_results
  rfl

/-! ## Leaving the projection region: its three output arrays at what the write-backs leave, everything else as entered -/

theorem W2_v3_0 (c : Dev nD) : W2 (F := Ideal) m ρ c (Proc.devRef .tc main_v3_0) = (dat0 (F := Ideal) (V1 m ρ) c).arrAt 7 cfg0.N :=
  W2_arr m ρ c 7

theorem W2_v3_1 (c : Dev nD) : W2 (F := Ideal) m ρ c (Proc.devRef .tc main_v3_1) = (dat0 (F := Ideal) (V1 m ρ) c).arrAt 8 cfg0.N :=
  W2_arr m ρ c 8

theorem W2_v3_2 (c : Dev nD) : W2 (F := Ideal) m ρ c (Proc.devRef .tc main_v3_2) = (dat0 (F := Ideal) (V1 m ρ) c).arrAt 9 cfg0.N :=
  W2_arr m ρ c 9

theorem W2_arg1 (c : Dev nD) : W2 (F := Ideal) m ρ c (Proc.devRef .tc main_arg1) = m ((c : Thread nD τ).loc main_arg1) :=
  (W2_of_ne m ρ c main_arg1 (by decide)).trans (W1_arg1 m ρ c)

theorem W2_arg8 (c : Dev nD) : W2 (F := Ideal) m ρ c (Proc.devRef .tc main_arg8) = m ((c : Thread nD τ).loc main_arg8) :=
  (W2_of_ne m ρ c main_arg8 (by decide)).trans (W1_arg8 m ρ c)

theorem W2_arg9 (c : Dev nD) : W2 (F := Ideal) m ρ c (Proc.devRef .tc main_arg9) = m ((c : Thread nD τ).loc main_arg9) :=
  (W2_of_ne m ρ c main_arg9 (by decide)).trans (W1_arg9 m ρ c)

theorem W2_arg10 (c : Dev nD) : W2 (F := Ideal) m ρ c (Proc.devRef .tc main_arg10) = m ((c : Thread nD τ).loc main_arg10) :=
  (W2_of_ne m ρ c main_arg10 (by decide)).trans (W1_arg10 m ρ c)

theorem W2_arg11 (c : Dev nD) : W2 (F := Ideal) m ρ c (Proc.devRef .tc main_arg11) = m ((c : Thread nD τ).loc main_arg11) :=
  (W2_of_ne m ρ c main_arg11 (by decide)).trans (W1_arg11 m ρ c)

/-! ## Entering the edge region: the four gathers, the per-node bias -/

set_option maxHeartbeats 4000000 in
theorem W3_v22 (c : Dev nD) : W3 (F := Ideal) m ρ c (Proc.devRef .tc main_v22)
    = gatherRows (W2 m ρ c (Proc.devRef .tc main_v3_1)) (W2 m ρ c (Proc.devRef .tc main_arg10)) := by
  show StableHlo.after hostOps1 (W2 m ρ c) (Proc.devRef .tc main_v22) = _
  after_results_simp <;> rfl

set_option maxHeartbeats 4000000 in
theorem W3_v29 (c : Dev nD) : W3 (F := Ideal) m ρ c (Proc.devRef .tc main_v29)
    = gatherRows (W2 m ρ c (Proc.devRef .tc main_v3_0)) (W2 m ρ c (Proc.devRef .tc main_arg11)) := by
  show StableHlo.after hostOps1 (W2 m ρ c) (Proc.devRef .tc main_v29) = _
  after_results_simp <;> rfl

set_option maxHeartbeats 4000000 in
theorem W3_v36 (c : Dev nD) : W3 (F := Ideal) m ρ c (Proc.devRef .tc main_v36)
    = gatherRows (W2 m ρ c (Proc.devRef .tc main_v3_2)) (W2 m ρ c (Proc.devRef .tc main_arg10)) := by
  show StableHlo.after hostOps1 (W2 m ρ c) (Proc.devRef .tc main_v36) = _
  after_results_simp <;> rfl

set_option maxHeartbeats 4000000 in
theorem W3_v43 (c : Dev nD) : W3 (F := Ideal) m ρ c (Proc.devRef .tc main_v43)
    = gatherRows (biasE (W2 m ρ c (Proc.devRef .tc main_arg1)) (W2 m ρ c (Proc.devRef .tc main_arg8)) (W2 m ρ c (Proc.devRef .tc main_arg9)))
        (W2 m ρ c (Proc.devRef .tc main_arg11)) := by
  show StableHlo.after hostOps1 (W2 m ρ c) (Proc.devRef .tc main_v43) = _
  after_results_simp <;> rfl

theorem W3_arg11 (c : Dev nD) : W3 (F := Ideal) m ρ c (Proc.devRef .tc main_arg11) = m ((c : Thread nD τ).loc main_arg11) := by
  refine Eq.trans ?_ (W2_arg11 m ρ c)
  show StableHlo.after hostOps1 (W2 m ρ c) (Proc.devRef .tc main_arg11) = _
  unwritten hostOps1

/-! ## Leaving the edge region -/

theorem W4_v44_0 (c : Dev nD) : W4 (F := Ideal) m ρ c (Proc.devRef .tc main_v44_0) = (dat1 (F := Ideal) (V3 m ρ) c).arrAt 4 cfg1.N :=
  W4_arr m ρ c 4

theorem W4_v44_1 (c : Dev nD) : W4 (F := Ideal) m ρ c (Proc.devRef .tc main_v44_1) = (dat1 (F := Ideal) (V3 m ρ) c).arrAt 5 cfg1.N :=
  W4_arr m ρ c 5

theorem W4_arg11 (c : Dev nD) : W4 (F := Ideal) m ρ c (Proc.devRef .tc main_arg11) = m ((c : Thread nD τ).loc main_arg11) :=
  (W4_of_ne m ρ c main_arg11 (by decide)).trans (W3_arg11 m ρ c)

/-! ## After the last stretch: the result -/

theorem W5_v52 (c : Dev nD) : W5 (F := Ideal) m ρ c (Proc.devRef .tc main_v52)
    = tail (W4 m ρ c (Proc.devRef .tc main_arg11)) (W4 m ρ c (Proc.devRef .tc main_v44_0)) (W4 m ρ c (Proc.devRef .tc main_v44_1)) := by
  show StableHlo.after hostOps2 (W4 m ρ c) (Proc.devRef .tc main_v52) = _
  after_results
  rfl

/-! ## The result buffer is the host-side term of the launch memory -/

/-- Given what the two regions leave in their output arrays (the whole-array stages of the arrays the regions find),
    the result buffer after the run is kernelTerm of the argument arrays as launched. -/
theorem kernel_value (c : Dev nD)
    (hq : (dat0 (F := Ideal) (V1 m ρ) c).arrAt 7 cfg0.N = projF (V1 m ρ c main_arg0) (V1 m ρ c main_arg2) (V1 m ρ c main_v0))
    (hk : (dat0 (F := Ideal) (V1 m ρ) c).arrAt 8 cfg0.N = projF (V1 m ρ c main_arg0) (V1 m ρ c main_arg4) (V1 m ρ c main_v1))
    (hv : (dat0 (F := Ideal) (V1 m ρ) c).arrAt 9 cfg0.N = projF (V1 m ρ c main_arg0) (V1 m ρ c main_arg6) (V1 m ρ c main_v2))
    (hwv : (dat1 (F := Ideal) (V3 m ρ) c).arrAt 4 cfg1.N
      = wvF (V3 m ρ c main_v22) (V3 m ρ c main_v29) (V3 m ρ c main_v36) (V3 m ρ c main_v43))
    (hsc : (dat1 (F := Ideal) (V3 m ρ) c).arrAt 5 cfg1.N = scF (V3 m ρ c main_v22) (V3 m ρ c main_v29) (V3 m ρ c main_v43)) :
    W5 (F := Ideal) m ρ c (Proc.devRef .tc main_v52)
      = kernelTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  have e22 : V3 m ρ c main_v22 = W3 m ρ c (Proc.devRef .tc main_v22) := rfl
  have e29 : V3 m ρ c main_v29 = W3 m ρ c (Proc.devRef .tc main_v29) := rfl
  have e36 : V3 m ρ c main_v36 = W3 m ρ c (Proc.devRef .tc main_v36) := rfl
  have e43 : V3 m ρ c main_v43 = W3 m ρ c (Proc.devRef .tc main_v43) := rfl
  have a0 : V1 m ρ c main_arg0 = m ((c : Thread nD τ).loc main_arg0) := W1_arg0 m ρ c
  have a2 : V1 m ρ c main_arg2 = m ((c : Thread nD τ).loc main_arg2) := W1_arg2 m ρ c
  have a4 : V1 m ρ c main_arg4 = m ((c : Thread nD τ).loc main_arg4) := W1_arg4 m ρ c
  have a6 : V1 m ρ c main_arg6 = m ((c : Thread nD τ).loc main_arg6) := W1_arg6 m ρ c
  have b0 : V1 m ρ c main_v0 = biasRow (m ((c : Thread nD τ).loc main_arg3)) := W1_v0 m ρ c
  have b1 : V1 m ρ c main_v1 = biasRow (m ((c : Thread nD τ).loc main_arg5)) := W1_v1 m ρ c
  have b2 : V1 m ρ c main_v2 = biasRow (m ((c : Thread nD τ).loc main_arg7)) := W1_v2 m ρ c
  rw [W5_v52, W4_arg11, W4_v44_0, W4_v44_1, hwv, hsc, e22, e29, e36, e43, W3_v22, W3_v29, W3_v36, W3_v43,
    W2_v3_0, W2_v3_1, W2_v3_2, hq, hk, hv, a0, a2, a4, a6, b0, b1, b2, W2_arg1, W2_arg8, W2_arg9, W2_arg10, W2_arg11]
  rfl

end Cert.Attn.K

end
-- ==== Proof.ProjValue.lean ====
/-
  THE NODE PROJECTIONS AS WHOLE ARRAYS.

  The first kernel region walks the 50000 node rows in 10 blocks of 5000. At block t it multiplies rows
  5000 t … 5000 t + 4999 of the features h (128 wide) by a whole 128 × 128 weight matrix into a zero accumulator, adds
  the bias row broadcast down the block, and writes the result to block t of an output array; it does so three times,
  with three weight matrices and bias rows, into three arrays. A change of float format is the identity on the
  extended reals, so at (p, q) the stored value is
      Σ_k h[5000 t + p, k] · W[k, q]  +  b[0, q],
  which is the projection projF h W b at (5000 t + p, q). Row r of an output lies in block r / 5000 and in no other,
  the 10 blocks tile the array, and so after the region each output array IS projF of the arrays the region found.

  The steps: the matrix product's dimension numbers are the plain ones (left operand read at (row, κ), right at
  (κ, column)); the body's payload is projF of its loaded blocks, index by index; a block of rows against the array
  (row p of block t is row 5000 t + p); the windows' block indices over the grid; each input block as a part of its
  array; what a point writes back; the cover; the arrays.
-/
import proofs.«167470_j85504208928874_1_alg».proof.Proof.FrameKernelIdeal
import proofs.«167470_j85504208928874_1_alg».proof.Proof.Spec
import Idealize.ShloMosaic.Lib.Pipeline.Value
import Idealize.ShloMosaic.Lib.ValueLayout
import Idealize.ShloMosaic.Lib.ValueIdx

set_option maxRecDepth 16384

noncomputable section

namespace Cert.Attn.ProjValue

open Idealize.ShloMosaic Idealize.ShloMosaic.TcCoe Idealize.SL.Sem
open Idealize.ShloMosaic.ValueIdx Idealize.ShloMosaic.SageSpec
open Idealize.ShloMosaic.Pipeline (Dat)
open Cert.KernelIdeal Cert.KernelIdeal.GenP Cert.KernelIdeal.Gen Cert.Attn

/-! ## The matrix product's dimension numbers are the plain "rows by columns" ones -/

/-- The left operand is read at the result's row on its axis 0, -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- and at the contracted position on its axis 1; -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- the right operand at the contracted position on its axis 0, -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- and at the result's column on its axis 1. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem plainDot : PlainDot (n := 5000) (k := 128) (m := 128) dot_S5000x128_S128x128_S5000x128_1_0_0_1_n_n where
  rank := rfl
  size := fun _ => rfl
  l0 := fun i q => lhs_0 i q
  l1 := fun i q _ => lhs_1 i q
  r0 := fun i q _ => rhs_0 i q
  r1 := fun i q => rhs_1 i q

/-! ## The body's payload, index by index -/

/-- What the body stores: the block of rows against the weight matrix, plus the bias row read at the column. -/
theorem pay_eq (x0 : Vec Ideal S5000x128 .f32) (w : Vec Ideal S128x128 .f32) (b : Vec Ideal S1x128 .f32) :
    k0_pay2 x0 w b = projF (R := 5000) x0 w b := by
  funext j
  obtain ⟨p, q, rfl⟩ : ∃ (p : Fin 5000) (q : Fin 128), j = ix2 p q := ⟨j 0, j 1, eq_ix2 j⟩
  unfold k0_pay2 k0_pay1
  dsimp only
  rw [addf_apply, shapeCast_self]
  exact congrArg₂ (· + ·) (matmul_zero_at plainDot none _ _ (ix2 p q)) (broadcastTo_1b_ab_apply b _ p q)

/-- The other two payloads are the same tree of operations on their own weight matrix and bias row. -/
theorem pay3_eq (x0 : Vec Ideal S5000x128 .f32) (w : Vec Ideal S128x128 .f32) (b : Vec Ideal S1x128 .f32) :
    k0_pay3 x0 w b = projF (R := 5000) x0 w b := pay_eq x0 w b

theorem pay4_eq (x0 : Vec Ideal S5000x128 .f32) (w : Vec Ideal S128x128 .f32) (b : Vec Ideal S1x128 .f32) :
    k0_pay4 x0 w b = projF (R := 5000) x0 w b := pay_eq x0 w b

/-- A block of rows against the whole array: if row p of the block is row 5000 t + p of the array, the projection of
    the block at (p, q) is the projection of the array at (5000 t + p, q), the weights and the bias being the same. -/
theorem proj_block (x0 : Mat 5000 128) (w : Mat 128 128) (b : Mat 1 128) (A : Mat 50000 128) (t : Nat)
    (hx : ∀ (p : Fin 5000) (k : Fin 128) (n : Fin 50000), n.val = 5000 * t + p.val → x0 (ix2 p k) = A (ix2 n k))
    (y : S5000x128.Idx) (i : S50000x128.Idx) (h0 : (i 0).val = 5000 * t + (y 0).val) (h1 : (i 1).val = (y 1).val) :
    projF (R := 5000) x0 w b y = projF (R := 50000) A w b i := by
  obtain ⟨p, q, rfl⟩ : ∃ (p : Fin 5000) (q : Fin 128), y = ix2 p q := ⟨y 0, y 1, eq_ix2 y⟩
  obtain ⟨n, q', rfl⟩ : ∃ (n : Fin 50000) (q' : Fin 128), i = ix2 n q' := ⟨i 0, i 1, eq_ix2 i⟩
  obtain rfl : q' = q := Fin.ext h1
  show rowDot x0 w p q' + b (ix2 0 q') = rowDot A w n q' + b (ix2 0 q')
  congr 1
  unfold rowDot
  exact Finset.sum_congr rfl fun k _ => by rw [hx p k n h0]

/-! ## From the blocks to the arrays -/

section
variable (V : (c : Dev nD) → (b : Ref sig .tc) → Buf (Elt Ideal) ((c : Thread nD τ).loc b))

/-- The zero offsets of the body's whole-buffer accesses. -/
theorem hz : (![0, 0] : Fin 2 → Nat) = fun _ => 0 := funext fun a => by fin_cases a <;> rfl

/-- The printed index maps over the grid: the node rows' window and the three outputs' windows are at block (t, 0) at
    point t; the weights' and the biases' windows stay at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Block t of the node features: its row p is row 5000 t + p of the array. -/
theorem rows_blk (c : Dev nD) (t : Fin cfg0.N) (p : Fin 5000) (k : Fin 128) (n : Fin 50000) (hn : n.val = 5000 * t.val + p.val) :
    (iblk0 V c 0 t : Vec Ideal S5000x128 .f32) (ix2 p k) = (V c main_arg0 : S50000x128.Idx → EReal) (ix2 n k) := by
  obtain ⟨⟨e0, e1⟩, -⟩ := idx_facts t
  unfold iblk0
  rw [View.read_apply]
  show V c main_arg0 _ = V c main_arg0 _
  congr 1
  funext a; apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The one block of the first weight matrix is the matrix. -/
theorem blk1 (c : Dev nD) (t : Fin cfg0.N) : (iblk0 V c 1 t : Vec Ideal S128x128 .f32) = (V c main_arg2 : S128x128.Idx → EReal) := by
  obtain ⟨-, ⟨e0, e1⟩, -⟩ := idx_facts t
  funext x
  unfold iblk0
  rw [View.read_apply]
  show V c main_arg2 _ = V c main_arg2 x
  congr 1
  funext a; apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The one block of the first bias row is the row. -/
theorem blk2 (c : Dev nD) (t : Fin cfg0.N) : (iblk0 V c 2 t : Vec Ideal S1x128 .f32) = (V c main_v0 : S1x128.Idx → EReal) := by
  obtain ⟨-, -, ⟨e0, e1⟩, -⟩ := idx_facts t
  funext x
  unfold iblk0
  rw [View.read_apply]
  show V c main_v0 _ = V c main_v0 x
  congr 1
  funext a; apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- What point t writes back to the first output is block t of the projection of the arrays. -/
theorem flushed_q (c : Dev nD) (t : Fin cfg0.N) :
    (dat0 (F := Ideal) V c).flushed 7 t
      = ((cfg0.win 7).blk t).view.read (Elt Ideal) (projF (R := 50000) (V c main_arg0) (V c main_arg2) (V c main_v0)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  rw [pay_eq, blk1 V c t, blk2 V c t]
  obtain ⟨-, -, -, -, -, -, -, ⟨e0, e1⟩, -⟩ := idx_facts t
  funext y
  rw [View.read_apply]
  refine proj_block _ _ _ _ t.val (fun p k n hn => rows_blk V c t p k n hn) y _ ?_ ?_
  · show win0_7.index t (0 : Fin 2) * 5000 + 1 * (y 0).val = 5000 * t.val + (y 0).val; rw [e0]; omega
  · show win0_7.index t (1 : Fin 2) * 128 + 1 * (y 1).val = (y 1).val; rw [e1]; omega

/-- Row r of the first output lies in the block of point r / 5000. -/
theorem cover_q (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, ⟨e0, e1⟩, -⟩ := idx_facts t
  refine ⟨t, flush0_7 t, ?_⟩
  show i ∈ ((View.whole main_v3_0).slice (win0_7.rect t)).set
  rw [View.set_slice_whole, Rect.mem_set_unit]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- THE FIRST OUTPUT after the region: the projection of the node features by the first weight matrix and bias row. -/
theorem proj_q (c : Dev nD) :
    (dat0 (F := Ideal) V c).arrAt 7 cfg0.N = projF (V c main_arg0) (V c main_arg2) (V c main_v0) :=
  (dat0 V c).arrAt_eq_of_cover 7 (projF (R := 50000) (V c main_arg0) (V c main_arg2) (V c main_v0))
    (fun t _ => flushed_q V c t) cover_q

/-! ### The second output -/

/-- The one block of the second weight matrix is the matrix. -/
theorem blk3 (c : Dev nD) (t : Fin cfg0.N) : (iblk0 V c 3 t : Vec Ideal S128x128 .f32) = (V c main_arg4 : S128x128.Idx → EReal) := by
  obtain ⟨-, -, -, ⟨e0, e1⟩, -⟩ := idx_facts t
  funext x
  unfold iblk0
  rw [View.read_apply]
  show V c main_arg4 _ = V c main_arg4 x
  congr 1
  funext a; apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The one block of the second bias row is the row. -/
theorem blk4 (c : Dev nD) (t : Fin cfg0.N) : (iblk0 V c 4 t : Vec Ideal S1x128 .f32) = (V c main_v1 : S1x128.Idx → EReal) := by
  obtain ⟨-, -, -, -, ⟨e0, e1⟩, -⟩ := idx_facts t
  funext x
  unfold iblk0
  rw [View.read_apply]
  show V c main_v1 _ = V c main_v1 x
  congr 1
  funext a; apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

/-- What point t writes back to the second output is block t of the projection of the arrays. -/
theorem flushed_k (c : Dev nD) (t : Fin cfg0.N) :
    (dat0 (F := Ideal) V c).flushed 8 t
      = ((cfg0.win 8).blk t).view.read (Elt Ideal) (projF (R := 50000) (V c main_arg0) (V c main_arg4) (V c main_v1)) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S1x128) hz]
  rw [pay3_eq, blk3 V c t, blk4 V c t]
  obtain ⟨-, -, -, -, -, -, -, -, ⟨e0, e1⟩, -⟩ := idx_facts t
  funext y
  rw [View.read_apply]
  refine proj_block _ _ _ _ t.val (fun p k n hn => rows_blk V c t p k n hn) y _ ?_ ?_
  · show win0_8.index t (0 : Fin 2) * 5000 + 1 * (y 0).val = 5000 * t.val + (y 0).val; rw [e0]; omega
  · show win0_8.index t (1 : Fin 2) * 128 + 1 * (y 1).val = (y 1).val; rw [e1]; omega

/-- Row r of the second output lies in the block of point r / 5000. -/
theorem cover_k (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, ⟨e0, e1⟩, -⟩ := idx_facts t
  refine ⟨t, flush0_8 t, ?_⟩
  show i ∈ ((View.whole main_v3_1).slice (win0_8.rect t)).set
  rw [View.set_slice_whole, Rect.mem_set_unit]
  intro a
  match a with
  | ⟨0, _⟩ =>
    show win0_8.index t (0 : Fin 2) * 5000 ≤ (i 0).val ∧ (i 0).val < win0_8.index t (0 : Fin 2) * 5000 + 5000
    rw [e0, ht]; omega
  | ⟨1, _⟩ =>
    show win0_8.index t (1 : Fin 2) * 128 ≤ (i 1).val ∧ (i 1).val < win0_8.index t (1 : Fin 2) * 128 + 128
    rw [e1]; omega

/-- THE SECOND OUTPUT after the region: the projection by the second weight matrix and bias row. -/
theorem proj_k (c : Dev nD) :
    (dat0 (F := Ideal) V c).arrAt 8 cfg0.N = projF (V c main_arg0) (V c main_arg4) (V c main_v1) :=
  (dat0 V c).arrAt_eq_of_cover 8 (projF (R := 50000) (V c main_arg0) (V c main_arg4) (V c main_v1))
    (fun t _ => flushed_k V c t) cover_k

/-! ### The third output -/

/-- The one block of the third weight matrix is the matrix. -/
theorem blk5 (c : Dev nD) (t : Fin cfg0.N) : (iblk0 V c 5 t : Vec Ideal S128x128 .f32) = (V c main_arg6 : S128x128.Idx → EReal) := by
  obtain ⟨-, -, -, -, -, ⟨e0, e1⟩, -⟩ := idx_facts t
  funext x
  unfold iblk0
  rw [View.read_apply]
  show V c main_arg6 _ = V c main_arg6 x
  congr 1
  funext a; apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- The one block of the third bias row is the row. -/
theorem blk6 (c : Dev nD) (t : Fin cfg0.N) : (iblk0 V c 6 t : Vec Ideal S1x128 .f32) = (V c main_v2 : S1x128.Idx → EReal) := by
  obtain ⟨-, -, -, -, -, -, ⟨e0, e1⟩, -⟩ := idx_facts t
  funext x
  unfold iblk0
  rw [View.read_apply]
  show V c main_v2 _ = V c main_v2 x
  congr 1
  funext a; apply Fin.ext
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

/-- What point t writes back to the third output is block t of the projection of the arrays. -/
theorem flushed_v (c : Dev nD) (t : Fin cfg0.N) :
    (dat0 (F := Ideal) V c).flushed 9 t
      = ((cfg0.win 9).blk t).view.read (Elt Ideal) (projF (R := 50000) (V c main_arg0) (V c main_arg6) (V c main_v2)) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  rw [pay4_eq, blk5 V c t, blk6 V c t]
  obtain ⟨-, -, -, -, -, -, -, -, -, e0, e1⟩ := idx_facts t
  funext y
  rw [View.read_apply]
  refine proj_block _ _ _ _ t.val (fun p k n hn => rows_blk V c t p k n hn) y _ ?_ ?_
  · show win0_9.index t (0 : Fin 2) * 5000 + 1 * (y 0).val = 5000 * t.val + (y 0).val; rw [e0]; omega
  · show win0_9.index t (1 : Fin 2) * 128 + 1 * (y 1).val = (y 1).val; rw [e1]; omega

/-- Row r of the third output lies in the block of point r / 5000. -/
theorem cover_v (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, e0, e1⟩ := idx_facts t
  refine ⟨t, flush0_9 t, ?_⟩
  show i ∈ ((View.whole main_v3_2).slice (win0_9.rect t)).set
  rw [View.set_slice_whole, Rect.mem_set_unit]
  intro a
  match a with
  | ⟨0, _⟩ =>
    show win0_9.index t (0 : Fin 2) * 5000 ≤ (i 0).val ∧ (i 0).val < win0_9.index t (0 : Fin 2) * 5000 + 5000
    rw [e0, ht]; omega
  | ⟨1, _⟩ =>
    show win0_9.index t (1 : Fin 2) * 128 ≤ (i 1).val ∧ (i 1).val < win0_9.index t (1 : Fin 2) * 128 + 128
    rw [e1]; omega

/-- THE THIRD OUTPUT after the region: the projection by the third weight matrix and bias row. -/
theorem proj_v (c : Dev nD) :
    (dat0 (F := Ideal) V c).arrAt 9 cfg0.N = projF (V c main_arg0) (V c main_arg6) (V c main_v2) :=
  (dat0 V c).arrAt_eq_of_cover 9 (projF (R := 50000) (V c main_arg0) (V c main_arg6) (V c main_v2))
    (fun t _ => flushed_v V c t) cover_v

end

end Cert.Attn.ProjValue

end
-- ==== Proof.EdgePayload.lean ====
/-
  THE EDGE KERNEL'S BODY, READ AT AN INDEX.

  The body works on four [4000, 128] blocks: rows of K (gathered at the sources), of Q (gathered at the targets), of V
  and of the bias laid out 128 wide. It forms the elementwise product P = K · Q, and for each of the 8 heads the piece
      exp (min 5 (max (-5) ((rowsum_16 (P[:, 16 hh : 16 hh + 16]) broadcast over 16 lanes + B[:, 16 hh : 16 hh + 16]) / 4))),
  a [4000, 16] block; the 8 pieces laid side by side are the score block, and V times the score block is the weighted
  value block. Here one head's piece is written once, generically in its column offset; the printed body is shown to be
  the concatenation of the eight instances; and the piece, the concatenation and the product are read at an index
  (r, j): the score block there is the activation of the sum over the 16 lanes of head j / 16 of K · Q in row r plus the
  bias at (r, j) — the specification's scF at 4000 rows — and the weighted value block is wvF.
-/
import proofs.«167470_j85504208928874_1_alg».proof.Proof.Gen.KernelIdeal.Skeleton
import proofs.«167470_j85504208928874_1_alg».proof.Proof.Spec
import Idealize.ShloMosaic.Lib.ValueLayout
import Idealize.ShloMosaic.PureOps.Ideal.Laws

noncomputable section

open scoped BigOperators

namespace Cert.Edge

open Idealize.ShloMosaic Idealize.ShloMosaic.ValueIdx Idealize.ShloMosaic.SageSpec
open Cert.KernelIdeal Cert.KernelIdeal.Gen Cert.Attn

/-! ## One head's piece, generically in the column offset -/

section AnyInstance
variable {F : FTy → Type} [FloatOps F]

/-- The piece of the score block for the 16 columns from o on: the row sums of those columns of the product p,
    broadcast over the 16 lanes, plus those columns of the bias b, divided by 4, clipped into [-5, 5], exponentiated. -/
def headPiece (o : Nat) (hs : S4000x128.Slices ![0, o] S4000x16) (b p : FVec F S4000x128 .f32) : FVec F S4000x16 .f32 :=
  exp (minimumf (broadcast S4000x16 (Scalar.ofBits .f32 0x40A00000#32))
    (maximumf (broadcast S4000x16 (Scalar.ofBits .f32 0xC0A00000#32))
      (divf
        (addf
          (broadcastTo S4000x16
            (shapeCast S4000x1
              (shapeCast S4000x1
                (multiReduction .add [1] S4000 (extractStridedSlice S4000x16 ![0, o] p hs) 0x00000000#32
                  reduces_S4000x16_S4000 (.inl rfl) rfl)
                shapeCasts_S4000_S4000x1)
              shapeCasts_S4000x1_S4000x1)
            broadcasts_S4000x1_S4000x16)
          (extractStridedSlice S4000x16 ![0, o] b hs))
        (broadcast S4000x16 (Scalar.ofBits .f32 0x40800000#32)))))

/-- The eight column offsets are in range. -/
theorem slices16 (n : Fin 8) : S4000x128.Slices ![0, 16 * n.val] S4000x16 := by
  revert n; decide

/-- The eight pieces, as a table over the head. -/
def headPieces (b p : FVec F S4000x128 .f32) (n : Fin 8) : FVec F S4000x16 .f32 :=
  headPiece (16 * n.val) (slices16 n) b p

/-- Eight [4000, 16] pieces side by side make a [4000, 128] block. -/
theorem concat8 (f : Fin 8 → FVec F S4000x16 .f32) :
    Shape.Concatenates ((List.ofFn fun n : Fin 8 => (⟨S4000x16, f n⟩ : (s : Shape) × (s.Idx → F .f32))).map (·.1)) S4000x128 1 :=
  concatenates_S4000x16_S4000x16_S4000x16_S4000x16_S4000x16_S4000x16_S4000x16_S4000x16_S4000x128_d1

/-- The score block the body stores, from the three blocks it reads: the printed pieces are the eight instances of the
    one piece, at the bias block and the product block. -/
theorem scPay_eq_concat (x0 x1 x3 : Vec F S4000x128 .f32) :
    k1_pay1 (k1_pay4 x3) (k1_pay5 x0 x1) (k1_pay6 x0 x1 x3) (k1_pay7 x0 x1 x3) (k1_pay9 (k1_pay4 x3) (k1_pay8 x0 x1))
        (k1_pay10 (k1_pay4 x3) (k1_pay5 x0 x1)) (k1_pay11 (k1_pay4 x3) (k1_pay5 x0 x1)) (k1_pay12 (k1_pay4 x3) (k1_pay5 x0 x1))
        (Scalar.ofBits .f32 0xC0A00000#32)
      = concatenate S4000x128 1
          (List.ofFn fun n : Fin 8 => (⟨S4000x16, headPieces (k1_pay4 x3) (k1_pay5 x0 x1) n⟩ : (s : Shape) × (s.Idx → F .f32)))
          (concat8 _) := rfl

end AnyInstance

/-! ## The piece, the block and the product at an index, on the extended reals -/

/-- Rows of a [4000, 16] block summed and laid back over the 16 lanes: at (r, d), the sum over the 16 lanes of row r. -/
theorem rowSumBroadcast_apply (src : FVec Ideal S4000x16 .f32) (r : Fin 4000) (d : Fin 16) :
    broadcastTo S4000x16
        (shapeCast S4000x1
          (shapeCast S4000x1
            (multiReduction (F := Ideal) .add [1] S4000 src 0x00000000#32 reduces_S4000x16_S4000 (.inl rfl) rfl)
            shapeCasts_S4000_S4000x1)
          shapeCasts_S4000x1_S4000x1)
        broadcasts_S4000x1_S4000x16 (ix2 r d)
      = ∑ k : Fin 16, src (ix2 r k) := by
  refine (broadcastTo_apply _ broadcasts_S4000x1_S4000x16 (ix2 r d) (ix2 r (0 : Fin 1)) (fun a => by
    match a with
    | ⟨0, _⟩ => rfl
    | ⟨1, _⟩ => rfl)).trans ?_
  rw [shapeCast_self]
  refine (shapeCast_apply _ shapeCasts_S4000_S4000x1 (ix2 r (0 : Fin 1)) (ix1 r) (by
    rw [Shape.rowMajor_val_one, Shape.rowMajor_val_two]
    show r.val = r.val * 1 + 0
    omega)).trans ?_
  refine (Ideal.multiReduction_add_single src 0x00000000#32 reduces_S4000x16_S4000 (.inl rfl) rfl (ix1 r)).trans ?_
  refine Finset.sum_congr rfl fun k _ => congrArg src ?_
  funext a
  match a with
  | ⟨0, _⟩ => rfl
  | ⟨1, _⟩ => rfl

/-- One head's piece at (r, d): the activation of the lane sum of the product over the piece's 16 columns in row r, plus
    the bias at the piece's column d. -/
theorem headPiece_apply (o : Nat) (ho : o + 16 ≤ 128) (hs : S4000x128.Slices ![0, o] S4000x16)
    (b p : FVec Ideal S4000x128 .f32) (r : Fin 4000) (d : Fin 16) :
    headPiece (F := Ideal) o hs b p (ix2 r d)
      = act ((∑ k : Fin 16, p (ix2 r (⟨o + k.val, by omega⟩ : Fin 128))) + b (ix2 r (⟨o + d.val, by omega⟩ : Fin 128))) := by
  have hA := rowSumBroadcast_apply (extractStridedSlice S4000x16 ![0, o] p hs) r d
  have hS : ∀ k : Fin 16, extractStridedSlice S4000x16 ![0, o] p hs (ix2 r k) = p (ix2 r (⟨o + k.val, by omega⟩ : Fin 128)) :=
    fun k => slice2_axis1_apply o p hs r k ⟨o + k.val, by omega⟩ rfl
  have hB : extractStridedSlice S4000x16 ![0, o] b hs (ix2 r d) = b (ix2 r (⟨o + d.val, by omega⟩ : Fin 128)) :=
    slice2_axis1_apply o b hs r d ⟨o + d.val, by omega⟩ rfl
  rw [Finset.sum_congr rfl fun k _ => hS k] at hA
  exact congrArg act (congrArg₂ (· + ·) hA hB)

/-- The eight pieces side by side, at (r, j): column j lies in the piece of head j / 16, at lane j % 16, so the block
    there is the activation of the lane sum of the product over head j / 16 in row r, plus the bias at (r, j). -/
theorem concatPieces_apply (b p : FVec Ideal S4000x128 .f32) (r : Fin 4000) (j : Fin 128) :
    concatenate S4000x128 1
        (List.ofFn fun n : Fin 8 => (⟨S4000x16, headPieces (F := Ideal) b p n⟩ : (s : Shape) × (s.Idx → Ideal .f32)))
        (concat8 _) (ix2 r j)
      = act ((∑ k : Fin 16, p (ix2 r (col (headOf j) k))) + b (ix2 r j)) := by
  refine (concatenate_ofFn_apply (t := S4000x128) (s₁ := S4000x16) (1 : Fin 2) (fun n : Fin 8 => headPieces (F := Ideal) b p n) (concat8 _) rfl 16 rfl
    (ix2 r j) (headOf j) rfl (ix2 r (laneOf j)) rfl (fun a ha => by
      match a with
      | ⟨0, _⟩ => rfl
      | ⟨1, _⟩ => exact absurd rfl ha)).trans ?_
  refine (headPiece_apply (16 * (headOf j).val) (by have := (headOf j).isLt; omega) (slices16 (headOf j)) b p r (laneOf j)).trans ?_
  have hj : (⟨16 * (headOf j).val + (laneOf j).val, by have := (headOf j).isLt; have := (laneOf j).isLt; omega⟩ : Fin 128) = j :=
    col_head_lane j
  rw [hj]
  rfl

/-- THE SCORE BLOCK the body stores, from the K, Q and bias blocks it reads, is the specification's score stage on
    4000 rows. -/
theorem scPay_eq (x0 x1 x3 : Vec Ideal S4000x128 .f32) :
    k1_pay1 (F := Ideal) (k1_pay4 x3) (k1_pay5 x0 x1) (k1_pay6 x0 x1 x3) (k1_pay7 x0 x1 x3) (k1_pay9 (k1_pay4 x3) (k1_pay8 x0 x1))
        (k1_pay10 (k1_pay4 x3) (k1_pay5 x0 x1)) (k1_pay11 (k1_pay4 x3) (k1_pay5 x0 x1)) (k1_pay12 (k1_pay4 x3) (k1_pay5 x0 x1))
        (Scalar.ofBits .f32 0xC0A00000#32)
      = scF x0 x1 x3 := by
  rw [scPay_eq_concat]
  funext i
  obtain ⟨r, j, rfl⟩ : ∃ (r : Fin 4000) (j : Fin 128), i = ix2 r j := ⟨i 0, i 1, eq_ix2 i⟩
  refine (concatPieces_apply (k1_pay4 x3) (k1_pay5 x0 x1) r j).trans ?_
  unfold k1_pay4 k1_pay5
  simp only [shapeCast_self]
  rfl

/-- THE WEIGHTED VALUE BLOCK the body stores is the specification's weighted-value stage on 4000 rows. -/
theorem wvPay_eq (x0 x1 x2 x3 : Vec Ideal S4000x128 .f32) :
    k1_pay2 (F := Ideal) (k1_pay3 x2) (k1_pay4 x3) (k1_pay5 x0 x1) (k1_pay6 x0 x1 x3) (k1_pay7 x0 x1 x3)
        (k1_pay9 (k1_pay4 x3) (k1_pay8 x0 x1))
        (k1_pay10 (k1_pay4 x3) (k1_pay5 x0 x1)) (k1_pay11 (k1_pay4 x3) (k1_pay5 x0 x1)) (k1_pay12 (k1_pay4 x3) (k1_pay5 x0 x1))
        (Scalar.ofBits .f32 0xC0A00000#32)
      = wvF x0 x1 x2 x3 := by
  unfold k1_pay2
  rw [scPay_eq]
  unfold k1_pay3
  simp only [shapeCast_self]
  rfl

/-! ## A block of rows of the whole-array stages -/

/-- Rows 4000 t … 4000 t + 3999 of the score stage of three [800000, 128] arrays are the score stage of their blocks of
    those rows: the stage reads row by row. -/
theorem scF_rows (K Q B : Mat 800000 128) (k q b : Mat 4000 128) (t : Nat) (ht : t < 200)
    (hk : ∀ (r : Fin 4000) (j : Fin 128), k (ix2 r j) = K (ix2 (⟨4000 * t + r.val, by omega⟩ : Fin 800000) j))
    (hq : ∀ (r : Fin 4000) (j : Fin 128), q (ix2 r j) = Q (ix2 (⟨4000 * t + r.val, by omega⟩ : Fin 800000) j))
    (hb : ∀ (r : Fin 4000) (j : Fin 128), b (ix2 r j) = B (ix2 (⟨4000 * t + r.val, by omega⟩ : Fin 800000) j))
    (r : Fin 4000) (j : Fin 128) :
    scF k q b (ix2 r j) = scF K Q B (ix2 (⟨4000 * t + r.val, by omega⟩ : Fin 800000) j) := by
  show act ((∑ d : Fin 16, k (ix2 r (col (headOf j) d)) * q (ix2 r (col (headOf j) d))) + b (ix2 r j))
    = act ((∑ d : Fin 16, K (ix2 (⟨4000 * t + r.val, by omega⟩ : Fin 800000) (col (headOf j) d))
        * Q (ix2 (⟨4000 * t + r.val, by omega⟩ : Fin 800000) (col (headOf j) d)))
      + B (ix2 (⟨4000 * t + r.val, by omega⟩ : Fin 800000) j))
  rw [hb r j, Finset.sum_congr rfl fun d _ => by rw [hk r (col (headOf j) d), hq r (col (headOf j) d)]]

/-- The same of the weighted-value stage. -/
theorem wvF_rows (K Q W B : Mat 800000 128) (k q w b : Mat 4000 128) (t : Nat) (ht : t < 200)
    (hk : ∀ (r : Fin 4000) (j : Fin 128), k (ix2 r j) = K (ix2 (⟨4000 * t + r.val, by omega⟩ : Fin 800000) j))
    (hq : ∀ (r : Fin 4000) (j : Fin 128), q (ix2 r j) = Q (ix2 (⟨4000 * t + r.val, by omega⟩ : Fin 800000) j))
    (hw : ∀ (r : Fin 4000) (j : Fin 128), w (ix2 r j) = W (ix2 (⟨4000 * t + r.val, by omega⟩ : Fin 800000) j))
    (hb : ∀ (r : Fin 4000) (j : Fin 128), b (ix2 r j) = B (ix2 (⟨4000 * t + r.val, by omega⟩ : Fin 800000) j))
    (r : Fin 4000) (j : Fin 128) :
    wvF k q w b (ix2 r j) = wvF K Q W B (ix2 (⟨4000 * t + r.val, by omega⟩ : Fin 800000) j) := by
  show w (ix2 r j) * scF k q b (ix2 r j)
    = W (ix2 (⟨4000 * t + r.val, by omega⟩ : Fin 800000) j) * scF K Q B (ix2 (⟨4000 * t + r.val, by omega⟩ : Fin 800000) j)
  rw [hw r j, scF_rows K Q B k q b t ht hk hq hb r j]

end Cert.Edge

end
-- ==== Proof.EdgeValue.lean ====
/-
  THE EDGE REGION'S TWO RESULT ARRAYS, WHOLE.

  The region runs the edge body at 200 points; point t reads rows 4000 t … 4000 t + 3999 of the four [800000, 128]
  arrays (K gathered at the sources, Q gathered at the targets, V gathered at the sources, the bias laid out 128 wide)
  and writes back the same rows of the two results. The body's stored blocks are the score stage and the weighted-value
  stage of the blocks it reads; both stages read row by row, so the block a point writes back is its block of rows of
  the stage of the whole arrays; every row lies in the block of point row / 4000; hence after the region the two result
  arrays are the weighted-value stage and the score stage of the four arrays as the region found them.
-/
import proofs.«167470_j85504208928874_1_alg».proof.Proof.FrameKernelIdeal
import proofs.«167470_j85504208928874_1_alg».proof.Proof.EdgePayload
import Idealize.ShloMosaic.Lib.Pipeline.Value

set_option maxRecDepth 16384

noncomputable section

open scoped BigOperators

namespace Cert.Edge

open Idealize.ShloMosaic Idealize.ShloMosaic.TcCoe Idealize.ShloMosaic.ValueIdx Idealize.ShloMosaic.SageSpec
open Idealize.SL.Sem
open Idealize.ShloMosaic.Pipeline (Dat)
open Cert.KernelIdeal Cert.KernelIdeal.GenP Cert.KernelIdeal.Gen Cert.Attn

variable (V : (c : Dev nD) → (b : Ref sig .tc) → Buf (Elt Ideal) ((c : Thread nD τ).loc b))

/-! ## What the body leaves in the two output buffers -/

theorem zeroOffsets : (![0, 0] : Fin 2 → Nat) = fun _ => 0 := funext fun a => by fin_cases a <;> rfl

/-- The score buffer after the body is the score stage of the K, Q and bias blocks. -/
theorem out1_5_eq (x0 x1 x2 x3 : Vec Ideal S4000x128 .f32) : out1_5 (F := Ideal) x0 x1 x2 x3 = scF x0 x1 x3 := by
  unfold out1_5
  rw [View.canon_unit_zero zeroOffsets]
  simp only [View.ld_unit_zero (S := S4000x128) zeroOffsets]
  exact scPay_eq x0 x1 x3

/-- The weighted-value buffer after the body is the weighted-value stage of the four blocks. -/
theorem out1_4_eq (x0 x1 x2 x3 : Vec Ideal S4000x128 .f32) : out1_4 (F := Ideal) x0 x1 x2 x3 = wvF x0 x1 x2 x3 := by
  unfold out1_4
  rw [View.canon_unit_zero zeroOffsets]
  simp only [View.ld_unit_zero (S := S4000x128) zeroOffsets]
  exact wvPay_eq x0 x1 x2 x3

/-! ## The windows' index maps -/

/-- Every window's block index at point t is (t, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem points : cfg1.N = 200 := N_1

theorem point_lt (t : Fin cfg1.N) : t.val < 200 := lt_of_lt_of_eq t.isLt points

/-! ## Blocks of rows -/

/-- Window 0's block at point t is rows 4000 t … of the K array. -/
theorem iblk_0_apply (c : Dev nD) (t : Fin cfg1.N) (r : Fin 4000) (j : Fin 128) :
    (iblk1 V c 0 t : Vec Ideal S4000x128 .f32) (ix2 r j)
      = (V c main_v22 : S800000x128.Idx → EReal) (ix2 (⟨4000 * t.val + r.val, by have := point_lt t; omega⟩ : Fin 800000) j) := by
  obtain ⟨h0, h1, -⟩ := index_facts t
  unfold iblk1
  rw [View.read_apply]
  show (V c main_v22 : S800000x128.Idx → EReal) _ = _
  refine congrArg (V c main_v22 : S800000x128.Idx → EReal) ?_
  funext a; apply Fin.ext
  match a with
  | ⟨0, _⟩ => show win1_0.index t (0 : Fin 2) * 4000 + 1 * r.val = 4000 * t.val + r.val; rw [h0]; omega
  | ⟨1, _⟩ => show win1_0.index t (1 : Fin 2) * 128 + 1 * j.val = j.val; rw [h1]; omega

/-- Window 1's block at point t is rows 4000 t … of the Q array. -/
theorem iblk_1_apply (c : Dev nD) (t : Fin cfg1.N) (r : Fin 4000) (j : Fin 128) :
    (iblk1 V c 1 t : Vec Ideal S4000x128 .f32) (ix2 r j)
      = (V c main_v29 : S800000x128.Idx → EReal) (ix2 (⟨4000 * t.val + r.val, by have := point_lt t; omega⟩ : Fin 800000) j) := by
  obtain ⟨-, -, h0, h1, -⟩ := index_facts t
  unfold iblk1
  rw [View.read_apply]
  show (V c main_v29 : S800000x128.Idx → EReal) _ = _
  refine congrArg (V c main_v29 : S800000x128.Idx → EReal) ?_
  funext a; apply Fin.ext
  match a with
  | ⟨0, _⟩ => show win1_1.index t (0 : Fin 2) * 4000 + 1 * r.val = 4000 * t.val + r.val; rw [h0]; omega
  | ⟨1, _⟩ => show win1_1.index t (1 : Fin 2) * 128 + 1 * j.val = j.val; rw [h1]; omega

/-- Window 2's block at point t is rows 4000 t … of the V array. -/
theorem iblk_2_apply (c : Dev nD) (t : Fin cfg1.N) (r : Fin 4000) (j : Fin 128) :
    (iblk1 V c 2 t : Vec Ideal S4000x128 .f32) (ix2 r j)
      = (V c main_v36 : S800000x128.Idx → EReal) (ix2 (⟨4000 * t.val + r.val, by have := point_lt t; omega⟩ : Fin 800000) j) := by
  obtain ⟨-, -, -, -, h0, h1, -⟩ := index_facts t
  unfold iblk1
  rw [View.read_apply]
  show (V c main_v36 : S800000x128.Idx → EReal) _ = _
  refine congrArg (V c main_v36 : S800000x128.Idx → EReal) ?_
  funext a; apply Fin.ext
  match a with
  | ⟨0, _⟩ => show win1_2.index t (0 : Fin 2) * 4000 + 1 * r.val = 4000 * t.val + r.val; rw [h0]; omega
  | ⟨1, _⟩ => show win1_2.index t (1 : Fin 2) * 128 + 1 * j.val = j.val; rw [h1]; omega

/-- Window 3's block at point t is rows 4000 t … of the bias array. -/
theorem iblk_3_apply (c : Dev nD) (t : Fin cfg1.N) (r : Fin 4000) (j : Fin 128) :
    (iblk1 V c 3 t : Vec Ideal S4000x128 .f32) (ix2 r j)
      = (V c main_v43 : S800000x128.Idx → EReal) (ix2 (⟨4000 * t.val + r.val, by have := point_lt t; omega⟩ : Fin 800000) j) := by
  obtain ⟨-, -, -, -, -, -, h0, h1, -⟩ := index_facts t
  unfold iblk1
  rw [View.read_apply]
  show (V c main_v43 : S800000x128.Idx → EReal) _ = _
  refine congrArg (V c main_v43 : S800000x128.Idx → EReal) ?_
  funext a; apply Fin.ext
  match a with
  | ⟨0, _⟩ => show win1_3.index t (0 : Fin 2) * 4000 + 1 * r.val = 4000 * t.val + r.val; rw [h0]; omega
  | ⟨1, _⟩ => show win1_3.index t (1 : Fin 2) * 128 + 1 * j.val = j.val; rw [h1]; omega

/-! ## What a point writes back -/

/-- An output window's block at point t, read off a whole [800000, 128] array G, is rows 4000 t … of G. -/
theorem read_blk5 (G : S800000x128.Idx → EReal) (t : Fin cfg1.N) (r : Fin 4000) (j : Fin 128) :
    (((cfg1.win 5).blk t).view.read (Elt Ideal) G : Vec Ideal S4000x128 .f32) (ix2 r j)
      = G (ix2 (⟨4000 * t.val + r.val, by have := point_lt t; omega⟩ : Fin 800000) j) := by
  obtain ⟨-, -, -, -, -, -, -, -, -, -, h0, h1⟩ := index_facts t
  rw [View.read_apply]
  refine congrArg G ?_
  funext a; apply Fin.ext
  match a with
  | ⟨0, _⟩ => show win1_5.index t (0 : Fin 2) * 4000 + 1 * r.val = 4000 * t.val + r.val; rw [h0]; omega
  | ⟨1, _⟩ => show win1_5.index t (1 : Fin 2) * 128 + 1 * j.val = j.val; rw [h1]; omega

theorem read_blk4 (G : S800000x128.Idx → EReal) (t : Fin cfg1.N) (r : Fin 4000) (j : Fin 128) :
    (((cfg1.win 4).blk t).view.read (Elt Ideal) G : Vec Ideal S4000x128 .f32) (ix2 r j)
      = G (ix2 (⟨4000 * t.val + r.val, by have := point_lt t; omega⟩ : Fin 800000) j) := by
  obtain ⟨-, -, -, -, -, -, -, -, h0, h1, -⟩ := index_facts t
  rw [View.read_apply]
  refine congrArg G ?_
  funext a; apply Fin.ext
  match a with
  | ⟨0, _⟩ => show win1_4.index t (0 : Fin 2) * 4000 + 1 * r.val = 4000 * t.val + r.val; rw [h0]; omega
  | ⟨1, _⟩ => show win1_4.index t (1 : Fin 2) * 128 + 1 * j.val = j.val; rw [h1]; omega

/-- WHAT POINT t WRITES BACK through the score window is its block of rows of the score stage of the whole arrays. -/
theorem flushed5_eq (c : Dev nD) (t : Fin cfg1.N) :
    (dat1 (F := Ideal) V c).flushed 5 t = ((cfg1.win 5).blk t).view.read (Elt Ideal)
      (scF (R := 800000) (V c main_v22) (V c main_v29) (V c main_v43)) := by
  show (cfg1.win 5).cut (grid1.coords t) ((dat1 V c).after 5 t) = _
  rw [after1_5]
  funext y
  obtain ⟨r, j, rfl⟩ : ∃ (r : Fin 4000) (j : Fin 128), y = ix2 r j := ⟨y 0, y 1, eq_ix2 y⟩
  refine Eq.trans ?_ (read_blk5 _ t r j).symm
  refine (congrFun (out1_5_eq (iblk1 V c 0 t) (iblk1 V c 1 t) (iblk1 V c 2 t) (iblk1 V c 3 t)) (ix2 r j)).trans ?_
  exact scF_rows (V c main_v22) (V c main_v29) (V c main_v43) (iblk1 V c 0 t) (iblk1 V c 1 t) (iblk1 V c 3 t) t.val (point_lt t)
    (iblk_0_apply V c t) (iblk_1_apply V c t) (iblk_3_apply V c t) r j

/-- The same through the weighted-value window, of the weighted-value stage. -/
theorem flushed4_eq (c : Dev nD) (t : Fin cfg1.N) :
    (dat1 (F := Ideal) V c).flushed 4 t = ((cfg1.win 4).blk t).view.read (Elt Ideal)
      (wvF (R := 800000) (V c main_v22) (V c main_v29) (V c main_v36) (V c main_v43)) := by
  show (cfg1.win 4).cut (grid1.coords t) ((dat1 V c).after 4 t) = _
  rw [after1_4]
  funext y
  obtain ⟨r, j, rfl⟩ : ∃ (r : Fin 4000) (j : Fin 128), y = ix2 r j := ⟨y 0, y 1, eq_ix2 y⟩
  refine Eq.trans ?_ (read_blk4 _ t r j).symm
  refine (congrFun (out1_4_eq (iblk1 V c 0 t) (iblk1 V c 1 t) (iblk1 V c 2 t) (iblk1 V c 3 t)) (ix2 r j)).trans ?_
  exact wvF_rows (V c main_v22) (V c main_v29) (V c main_v36) (V c main_v43) (iblk1 V c 0 t) (iblk1 V c 1 t) (iblk1 V c 2 t)
    (iblk1 V c 3 t) t.val (point_lt t) (iblk_0_apply V c t) (iblk_1_apply V c t) (iblk_2_apply V c t) (iblk_3_apply V c t) r j

/-! ## Every row is in some point's block -/

/-- An index of the score array is in point t's block iff each coordinate is in the block's range on its axis. -/
theorem mem_blk5 (t : Fin cfg1.N) (i : S800000x128.Idx) :
    i ∈ ((cfg1.win 5).blk t).view.set
      ↔ ∀ a : Fin 2, win1_5.index t a * S4000x128.size a ≤ (i a).val ∧ (i a).val < win1_5.index t a * S4000x128.size a + S4000x128.size a := by
  show i ∈ ((View.whole main_v44_1).slice (win1_5.rect t)).set ↔ _
  rw [View.set_slice_whole, Rect.mem_set_unit]
  exact Iff.rfl

/-- The same of the weighted-value array. -/
theorem mem_blk4 (t : Fin cfg1.N) (i : S800000x128.Idx) :
    i ∈ ((cfg1.win 4).blk t).view.set
      ↔ ∀ a : Fin 2, win1_4.index t a * S4000x128.size a ≤ (i a).val ∧ (i a).val < win1_4.index t a * S4000x128.size a + S4000x128.size a := by
  show i ∈ ((View.whole main_v44_0).slice (win1_4.rect t)).set ↔ _
  rw [View.set_slice_whole, Rect.mem_set_unit]
  exact Iff.rfl

/-- Row r of the score array lies in the block of point r / 4000, which writes back. -/
theorem cover5 (i : S800000x128.Idx) :
    ∃ t : Fin cfg1.N, (cfg1.win 5).flush t = true ∧ i ∈ ((cfg1.win 5).blk t).view.set := by
  have hi0 : (i 0).val < 800000 := (i 0).isLt
  have hi1 : (i 1).val < 128 := (i 1).isLt
  obtain ⟨t, ht⟩ : ∃ t : Fin cfg1.N, t.val = (i 0).val / 4000 := ⟨⟨(i 0).val / 4000, by rw [points]; omega⟩, rfl⟩
  obtain ⟨-, -, -, -, -, -, -, -, -, -, h0, h1⟩ := index_facts t
  refine ⟨t, flush1_5 t, ?_⟩
  rw [mem_blk5]
  intro a
  match a with
  | ⟨0, _⟩ =>
    show win1_5.index t (0 : Fin 2) * 4000 ≤ (i 0).val ∧ (i 0).val < win1_5.index t (0 : Fin 2) * 4000 + 4000
    rw [h0, ht]; omega
  | ⟨1, _⟩ =>
    show win1_5.index t (1 : Fin 2) * 128 ≤ (i 1).val ∧ (i 1).val < win1_5.index t (1 : Fin 2) * 128 + 128
    rw [h1]; omega

/-- Row r of the weighted-value array likewise. -/
theorem cover4 (i : S800000x128.Idx) :
    ∃ t : Fin cfg1.N, (cfg1.win 4).flush t = true ∧ i ∈ ((cfg1.win 4).blk t).view.set := by
  have hi0 : (i 0).val < 800000 := (i 0).isLt
  have hi1 : (i 1).val < 128 := (i 1).isLt
  obtain ⟨t, ht⟩ : ∃ t : Fin cfg1.N, t.val = (i 0).val / 4000 := ⟨⟨(i 0).val / 4000, by rw [points]; omega⟩, rfl⟩
  obtain ⟨-, -, -, -, -, -, -, -, h0, h1, -⟩ := index_facts t
  refine ⟨t, flush1_4 t, ?_⟩
  rw [mem_blk4]
  intro a
  match a with
  | ⟨0, _⟩ =>
    show win1_4.index t (0 : Fin 2) * 4000 ≤ (i 0).val ∧ (i 0).val < win1_4.index t (0 : Fin 2) * 4000 + 4000
    rw [h0, ht]; omega
  | ⟨1, _⟩ =>
    show win1_4.index t (1 : Fin 2) * 128 ≤ (i 1).val ∧ (i 1).val < win1_4.index t (1 : Fin 2) * 128 + 128
    rw [h1]; omega

/-! ## The two arrays after the region -/

/-- THE SCORE ARRAY after the region: the score stage of the K, Q and bias arrays as the region found them. -/
theorem edge_sc (c : Dev nD) :
    (dat1 (F := Ideal) V c).arrAt 5 cfg1.N = scF (R := 800000) (V c main_v22) (V c main_v29) (V c main_v43) :=
  (dat1 (F := Ideal) V c).arrAt_eq_of_cover 5 (scF (R := 800000) (V c main_v22) (V c main_v29) (V c main_v43))
    (fun t _ => flushed5_eq V c t) cover5

/-- THE WEIGHTED-VALUE ARRAY after the region: the weighted-value stage of the four arrays as the region found them. -/
theorem edge_wv (c : Dev nD) :
    (dat1 (F := Ideal) V c).arrAt 4 cfg1.N
      = wvF (R := 800000) (V c main_v22) (V c main_v29) (V c main_v36) (V c main_v43) :=
  (dat1 (F := Ideal) V c).arrAt_eq_of_cover 4 (wvF (R := 800000) (V c main_v22) (V c main_v29) (V c main_v36) (V c main_v43))
    (fun t _ => flushed4_eq V c t) cover4

end Cert.Edge

end
-- ==== Proof.LibRowGatherScatter.lean ====
/-
  ROWS OF A TABLE, GATHERED AND SCATTER-ADDED, READ AT AN INDEX.

  For a table of shape [N, C] and E integer row indices (an [E, 1] array of words):

  * the row gather (dimension numbers: offset axis 1, collapsed axis 0, start index map [0], index vector on axis 1,
    slices of size [1, C]) has, at result position (e, j), the table's element at row idx[e, 0] — read as a signed
    integer and clamped into [0, N - 1] — and column j (gather_rows_apply);
  * the row scatter with an add body (window axis 1, inserted axis 0, scatter axis 0, index vector on axis 1) has, at
    the exact (extended-real) instance, at position (n, j) the operand's element plus the sum, over the rows e of the
    updates whose index idx[e, 0], read as a signed integer and NOT clamped, is exactly n, of upd[e, j]; a row whose
    index lies outside [0, N) contributes nowhere (scatterAdd_rows_apply);
  * both operations act column by column, so they commute with restricting every array to a block of columns
    c0, …, c0 + C' - 1 (gather_rows_cols, scatterAdd_rows_cols).
-/
import Idealize.ShloMosaic.Lib.ValueIdx
import Idealize.ShloMosaic.PureOps.Contract

noncomputable section

open scoped BigOperators

namespace Cert.LibRows

open Idealize.ShloMosaic Idealize.ShloMosaic.ValueIdx

/-! ## The row gather -/

section Gather
variable {α : Type}

/-- The row gather's dimension numbers for a table [N, C], start indices [E, 1] and result [E, C]; their conditions
    are decided on literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The conditions hold only of a table with at least one row: the size-1 slice must fit on axis 0. -/
theorem rowGather_pos {N E C : Nat}
    (wf : GatherDims.WF ⟨2, ![N, C]⟩ ⟨2, ![E, 1]⟩ ⟨2, ![E, C]⟩ [1] [0] [] [0] [] 1 ![1, C]) : 0 < N :=
  (rowGather N E C wf).slice_le 0

/-- THE ROW GATHER AT (e, j): the table at row idx[e, 0], read signed and clamped into [0, N - 1], and column j. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  have h10 : (1 : Fin 2) ∉ ([0] : List (Fin 2)) := by decide
  -- axis 0 is collapsed: no offset coordinate; its start is the clamped index
  have h0 : (rowGather N E C wf).start (ix2 e j) idx (0 : Fin 2) + (rowGather N E C wf).batchCoord (ix2 e j) (0 : Fin 2)
      + (rowGather N E C wf).offCoord (ix2 e j) (0 : Fin 2) = min (idx (ix2 e (0 : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1 is not indexed: its start is 0 and its offset coordinate the result's column
  have h1 : (rowGather N E C wf).start (ix2 e j) idx (1 : Fin 2) + (rowGather N E C wf).batchCoord (ix2 e j) (1 : Fin 2)
      + (rowGather N E C wf).offCoord (ix2 e j) (1 : Fin 2) = j.val := by
    have hs : (rowGather N E C wf).start (ix2 e j) idx (1 : Fin 2) = 0 := by
      unfold GatherDims.start
      rw [dif_neg (show (1 : Fin 2) ∉ (rowGather N E C wf).startIndexMap from h10)]
    have ho : (rowGather N E C wf).offCoord (ix2 e j) (1 : Fin 2) = j.val := by
      unfold GatherDims.offCoord
      rw [dif_pos (show (1 : Fin 2) ∈ (rowGather N E C wf).sKept from
        (GatherDims.mem_sKept _ _).mpr ⟨h10, List.not_mem_nil⟩)]
      rfl
    rw [GatherDims.batchCoord_eq_zero _ _ _ List.not_mem_nil, hs, ho]; omega
  unfold Host.gather
  congr 1
  funext a
  refine Fin.ext ?_
  match a with
  | ⟨0, _⟩ => exact h0
  | ⟨1, _⟩ => exact h1

end Gather

/-! ## The row scatter with an add body -/

section Scatter

/-- The row scatter's dimension numbers for an operand [N, C], scatter indices [E, 1] and updates [E, C]; their
    conditions are decided on literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On axis 0 the window of update (e, j) starts at the index idx[e, 0], read signed. -/
theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which no index names, it starts at 0. -/
theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

/-- Axis 0 is an inserted axis: the window coordinate there is 0. -/
theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

/-- On axis 1 the window coordinate is the update's column. -/
theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

/-- WHERE AN UPDATE LANDS: update (e, j') goes to operand position (n, j) exactly when its row index idx[e, 0], read
    signed, is n and j' = j. (An index outside [0, N) is no n : Fin N: that update lands nowhere.) -/
theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

/-- THE ROW SCATTER-ADD AT (n, j), exact instance: the operand's element plus the sum of upd[e, j] over the update
    rows e whose index idx[e, 0], read signed and not clamped, is n. -/
theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1
  -- the updates that land at (n, j) are the (e, j) with idx[e, 0] = n: re-index the sum by the row e
  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

/-- The same of the host operation at the exact instance, for any float format. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

/-! ## Restriction to a block of columns -/

section Cols

/-- The columns c0, …, c0 + C' - 1 of an [R, C] array, as an [R, C'] array. -/
def cols {α : Type} {R C C' : Nat} (c0 : Nat) (h : c0 + C' ≤ C) (X : (⟨2, ![R, C]⟩ : Shape).Idx → α) :
    (⟨2, ![R, C']⟩ : Shape).Idx → α :=
  fun i => X (ix2 ⟨(i 0).val, idx2_lt0 i⟩ ⟨c0 + (i 1).val, by have := idx2_lt1 i; omega⟩)

/-- Its element (r, c) is the array's element (r, c0 + c). -/
theorem cols_apply {α : Type} {R C C' : Nat} (c0 : Nat) (h : c0 + C' ≤ C) (X : (⟨2, ![R, C]⟩ : Shape).Idx → α)
    (r : Fin R) (c : Fin C') : cols c0 h X (ix2 r c) = X (ix2 r ⟨c0 + c.val, by omega⟩) := rfl

/-- THE ROW GATHER COMMUTES WITH TAKING COLUMNS: gathering rows of the column block is the column block of the
    gathered rows (the row chosen depends on the index only). -/
theorem gather_rows_cols {α : Type} {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (c0 : Nat) (h : c0 + C' ≤ C) (x : (⟨2, ![N, C]⟩ : Shape).Idx → α) (idx : IVec ⟨2, ![E, 1]⟩ w) :
    Host.gather (rowGather N E C' wf') (cols c0 h x) idx = cols c0 h (Host.gather (rowGather N E C wf) x idx) := by
  funext i
  obtain ⟨e, c, rfl⟩ : ∃ (e : Fin E) (c : Fin C'), i = ix2 e c := ⟨i 0, i 1, eq_ix2 i⟩
  rw [gather_rows_apply hN wf', cols_apply, cols_apply, gather_rows_apply hN wf]

/-- THE ROW SCATTER-ADD COMMUTES WITH TAKING COLUMNS (exact instance): column c0 + c of the result is made of column
    c0 + c of the operand and of the updates only. -/
theorem scatterAdd_rows_cols {φ : FTy} {N E C C' w : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (c0 : Nat) (h : c0 + C' ≤ C) (x : FVec Ideal ⟨2, ![N, C]⟩ φ) (idx : IVec ⟨2, ![E, 1]⟩ w)
    (upd : FVec Ideal ⟨2, ![E, C]⟩ φ) :
    Host.scatterAdd (F := Ideal) (rowScatter N E C' wf') (cols c0 h x) idx (cols c0 h upd)
      = cols c0 h (Host.scatterAdd (F := Ideal) (rowScatter N E C wf) x idx upd) := by
  funext i
  obtain ⟨n, c, rfl⟩ : ∃ (n : Fin N) (c : Fin C'), i = ix2 n c := ⟨i 0, i 1, eq_ix2 i⟩
  rw [host_scatterAdd_rows_apply wf', cols_apply, cols_apply, host_scatterAdd_rows_apply wf]
  rfl

end Cols

end Cert.LibRows

end
-- ==== Proof.KernelMath.lean ====
/-
  THE HOST-SIDE TERM OF THE KERNEL PROGRAM IS THE SPECIFICATION. Read at an index (n, hh, d), every layout operation of
  the term names one element of its operand: a bias row [1, 128] is the bias at its column; a per-head vector repeated
  over 16 lanes is the vector at the column's head; the wrapped index column carries the wrapped word of each edge; a row
  gather reads the table at the clamped wrapped word; the two scatter-sums from zero collect, at node n, the updates of
  the edges whose destination word is n; the final reshape matches (n, hh, d) with (n, 16 hh + d). With these readings
  the term's quotient of sums is, summand by summand, the one the specification writes.
-/
import proofs.«167470_j85504208928874_1_alg».proof.Proof.KernelTerm
import proofs.«167470_j85504208928874_1_alg».proof.Proof.LibRowGatherScatter
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.Attn.K

open Idealize.ShloMosaic Idealize.ShloMosaic.ValueIdx Idealize.ShloMosaic.SageSpec Cert.KernelIdeal Cert.KernelIdeal.Facts₀ Cert.Attn

/-! ## The layout operations read at an index -/

/-- The wrapped index column at (e, 0) is the wrapped word of edge e. -/
theorem wrapCol_apply (w : IVec S800000 32) (e : Fin 800000) :
    wrapCol w (ix2 e (0 : Fin 1)) = wrapW (w (ix1 e)) := by
  refine (broadcastInDim_apply (s := S800000) (t := S800000x1) ![0] bcast_S800000_S800000x1_0 _ (ix2 e (0 : Fin 1)) (ix1 e)
    fun a => ?_).trans ?_
  · match a with
    | ⟨0, _⟩ =>
      show e.val = if (800000 : ℕ) = 1 then 0 else e.val
      rw [if_neg (by decide)]
  · rfl

/-- A row gather at the wrapped words reads, at (e, j), the table at row rowOf (w e) and column j. -/
theorem gatherRows_apply (x : FVec Ideal S50000x128 .f32) (w : IVec S800000 32) (e : Fin 800000) (j : Fin 128) :
    gatherRows x w (ix2 e j) = x (ix2 (rowOf (w (ix1 e))) j) := by
  have hrec : gather_S50000x128_S800000x1_S800000x128_1_0_n_n_0_1_1128
      = Cert.LibRows.rowGather 50000 800000 128 gather_S50000x128_S800000x1_S800000x128_1_0_n_n_0_1_1128_wf := rfl
  show Host.gather gather_S50000x128_S800000x1_S800000x128_1_0_n_n_0_1_1128 x (wrapCol w) (ix2 e j) = _
  rw [hrec, Cert.LibRows.gather_rows_apply (by decide)]
  have hw := wrapCol_apply w e
  unfold rowOf
  refine congrArg x ?_
  refine congrArg (fun r => ix2 r j) (Fin.ext ?_)
  show min ((wrapCol w (ix2 e (0 : Fin 1))).toInt.toNat) (50000 - 1) = min (wrapW (w (ix1 e))).toInt.toNat (50000 - 1)
  rw [hw]

/-- The bias row [1, 128] at (0, j) is the bias at j. -/
theorem biasRow_apply (b : FVec Ideal S128 .f32) (j : Fin 128) : biasRow b (ix2 (0 : Fin 1) j) = b (ix1 j) :=
  shapeCast_a_1a_apply b shapeCasts_S128_S1x128 (0 : Fin 1) j

/-- A per-head vector repeated over the lanes: at column 16 hh + d it is the vector at hh. -/
theorem lanes_apply (a : FVec Ideal S8 .f32) (hh : Fin 8) (d : Fin 16) : lanes a (ix1 (col hh d)) = a (ix1 hh) := by
  refine (shapeCast_apply (s := S8x16) (t := S128) _ shapeCasts_S8x16_S128 (ix1 (col hh d)) (ix2 hh d) ?_).trans ?_
  · rw [Shape.rowMajor_val_two, Shape.rowMajor_val_one]
    show hh.val * 16 + d.val = 16 * hh.val + d.val
    omega
  · refine broadcastInDim_apply (s := S8) (t := S8x16) ![0] bcast_S8_S8x16_0 a (ix2 hh d) (ix1 hh) fun c => ?_
    match c with
    | ⟨0, _⟩ =>
      show hh.val = if (8 : ℕ) = 1 then 0 else hh.val
      rw [if_neg (by decide)]

/-- The per-node bias laid out 128 wide, at (n, 16 hh + d): dis[n] · aw[hh] + ab[hh]. -/
theorem biasE_apply (dis : FVec Ideal S50000 .f32) (aw ab : FVec Ideal S8 .f32) (n : Fin 50000) (hh : Fin 8) (d : Fin 16) :
    biasE dis aw ab (ix2 n (col hh d)) = dis (ix1 n) * aw (ix1 hh) + ab (ix1 hh) := by
  -- the node's number broadcast along the columns
  have hdis : broadcastInDim S50000x128 ![0, 1] bcast_S50000x1_S50000x128_0_1
      (broadcastInDim S50000x1 ![0] bcast_S50000_S50000x1_0 dis) (ix2 n (col hh d)) = dis (ix1 n) := by
    refine (broadcastInDim_apply (s := S50000x1) (t := S50000x128) ![0, 1] bcast_S50000x1_S50000x128_0_1 _
      (ix2 n (col hh d)) (ix2 n (0 : Fin 1)) fun c => ?_).trans ?_
    · match c with
      | ⟨0, _⟩ =>
        show n.val = if (50000 : ℕ) = 1 then 0 else n.val
        rw [if_neg (by decide)]
      | ⟨1, _⟩ => rfl
    · refine broadcastInDim_apply (s := S50000) (t := S50000x1) ![0] bcast_S50000_S50000x1_0 dis (ix2 n (0 : Fin 1)) (ix1 n)
        fun c => ?_
      match c with
      | ⟨0, _⟩ =>
        show n.val = if (50000 : ℕ) = 1 then 0 else n.val
        rw [if_neg (by decide)]
  -- a 128-wide row broadcast along the nodes
  have hrow : ∀ a : FVec Ideal S8 .f32, broadcastInDim S50000x128 ![0, 1] bcast_S1x128_S50000x128_0_1
      (broadcastInDim S1x128 ![1] bcast_S128_S1x128_1 (lanes a)) (ix2 n (col hh d)) = a (ix1 hh) := by
    intro a
    refine (broadcastInDim_apply (s := S1x128) (t := S50000x128) ![0, 1] bcast_S1x128_S50000x128_0_1 _
      (ix2 n (col hh d)) (ix2 (0 : Fin 1) (col hh d)) fun c => ?_).trans ?_
    · match c with
      | ⟨0, _⟩ => rfl
      | ⟨1, _⟩ =>
        show (col hh d).val = if (128 : ℕ) = 1 then 0 else (col hh d).val
        rw [if_neg (by decide)]
    · refine (broadcastInDim_apply (s := S128) (t := S1x128) ![1] bcast_S128_S1x128_1 (lanes a)
        (ix2 (0 : Fin 1) (col hh d)) (ix1 (col hh d)) fun c => ?_).trans (lanes_apply a hh d)
      match c with
      | ⟨0, _⟩ =>
        show (col hh d).val = if (128 : ℕ) = 1 then 0 else (col hh d).val
        rw [if_neg (by decide)]
  show broadcastInDim S50000x128 ![0, 1] bcast_S50000x1_S50000x128_0_1
        (broadcastInDim S50000x1 ![0] bcast_S50000_S50000x1_0 dis) (ix2 n (col hh d))
      * broadcastInDim S50000x128 ![0, 1] bcast_S1x128_S50000x128_0_1
        (broadcastInDim S1x128 ![1] bcast_S128_S1x128_1 (lanes aw)) (ix2 n (col hh d))
      + broadcastInDim S50000x128 ![0, 1] bcast_S1x128_S50000x128_0_1
        (broadcastInDim S1x128 ![1] bcast_S128_S1x128_1 (lanes ab)) (ix2 n (col hh d)) = _
  rw [hdis, hrow aw, hrow ab]

/-! ## The stages read at an index -/

/-- A projection with its bias row, at (n, j): row n of h against column j of W, plus b[j]. -/
theorem projF_apply (h : FVec Ideal S50000x128 .f32) (W : FVec Ideal S128x128 .f32) (b : FVec Ideal S128 .f32)
    (n : Fin 50000) (j : Fin 128) :
    projF h W (biasRow b) (ix2 n j) = lin h W (fun j => b (ix1 j)) n j := by
  show rowDot h W n j + biasRow b (ix2 (0 : Fin 1) j) = rowDot h W n j + b (ix1 j)
  rw [biasRow_apply]

section
variable (h : FVec Ideal S50000x128 .f32) (dis : FVec Ideal S50000 .f32) (Wq : FVec Ideal S128x128 .f32)
  (bq : FVec Ideal S128 .f32) (Wk : FVec Ideal S128x128 .f32) (bk : FVec Ideal S128 .f32) (Wv : FVec Ideal S128x128 .f32)
  (bv : FVec Ideal S128 .f32) (aw ab : FVec Ideal S8 .f32) (src dst : IVec S800000 32)

/-- The score array at (e, 16 hh + d) is the score of edge e in head hh. -/
theorem scF_apply (e : Fin 800000) (hh : Fin 8) (d : Fin 16) :
    scF (gatherRows (projF h Wk (biasRow bk)) src) (gatherRows (projF h Wq (biasRow bq)) dst)
        (gatherRows (biasE dis aw ab) dst) (ix2 e (col hh d))
      = score h (fun n => dis (ix1 n)) Wq Wk (fun j => bq (ix1 j)) (fun j => bk (ix1 j)) (fun a => aw (ix1 a))
          (fun a => ab (ix1 a)) (fun e => src (ix1 e)) (fun e => dst (ix1 e)) e hh := by
  show act ((∑ d' : Fin 16, gatherRows (projF h Wk (biasRow bk)) src (ix2 e (col (headOf (col hh d)) d'))
        * gatherRows (projF h Wq (biasRow bq)) dst (ix2 e (col (headOf (col hh d)) d')))
      + gatherRows (biasE dis aw ab) dst (ix2 e (col hh d))) = _
  rw [headOf_col, gatherRows_apply, biasE_apply]
  unfold score logit
  refine congrArg act (congrArg (· + _) (Finset.sum_congr rfl fun d' _ => ?_))
  rw [gatherRows_apply, gatherRows_apply, projF_apply, projF_apply]

/-- The weighted values at (e, 16 hh + d): the value row of the source times the score. -/
theorem wvF_apply (e : Fin 800000) (hh : Fin 8) (d : Fin 16) :
    wvF (gatherRows (projF h Wk (biasRow bk)) src) (gatherRows (projF h Wq (biasRow bq)) dst)
        (gatherRows (projF h Wv (biasRow bv)) src) (gatherRows (biasE dis aw ab) dst) (ix2 e (col hh d))
      = lin h Wv (fun j => bv (ix1 j)) (rowOf (src (ix1 e))) (col hh d)
        * score h (fun n => dis (ix1 n)) Wq Wk (fun j => bq (ix1 j)) (fun j => bk (ix1 j)) (fun a => aw (ix1 a))
          (fun a => ab (ix1 a)) (fun e => src (ix1 e)) (fun e => dst (ix1 e)) e hh := by
  show gatherRows (projF h Wv (biasRow bv)) src (ix2 e (col hh d))
      * scF (gatherRows (projF h Wk (biasRow bk)) src) (gatherRows (projF h Wq (biasRow bq)) dst)
        (gatherRows (biasE dis aw ab) dst) (ix2 e (col hh d)) = _
  rw [scF_apply, gatherRows_apply, projF_apply]

end

/-! ## The scatter-sums and the result -/

/-- A scatter-sum from zero at the destination words, at (n, j): zero plus the updates of the edges that land on n. -/
theorem scatterZero_apply (dst : IVec S800000 32) (upd : FVec Ideal S800000x128 .f32) (n : Fin 50000) (j : Fin 128) :
    Host.scatterAdd (F := Ideal) scatter_S50000x128_S800000x1_S800000x128_1_0_0_1
        (broadcastInDim S50000x128 ![] bcast_S_S50000x128 (constant S_ .f32 0x00000000#32))
        (broadcastInDim S800000x1 ![0] bcast_S800000_S800000x1_0 dst) upd (ix2 n j)
      = zero + ∑ e ∈ into (fun e => dst (ix1 e)) n, upd (ix2 e j) := by
  have hrec : scatter_S50000x128_S800000x1_S800000x128_1_0_0_1
      = Cert.LibRows.rowScatter 50000 800000 128 scatter_S50000x128_S800000x1_S800000x128_1_0_0_1_wf := rfl
  have hidx : ∀ e : Fin 800000,
      broadcastInDim S800000x1 ![0] bcast_S800000_S800000x1_0 dst (ix2 e (0 : Fin 1)) = dst (ix1 e) := by
    intro e
    refine broadcastInDim_apply (s := S800000) (t := S800000x1) ![0] bcast_S800000_S800000x1_0 dst (ix2 e (0 : Fin 1)) (ix1 e)
      fun a => ?_
    match a with
    | ⟨0, _⟩ =>
      show e.val = if (800000 : ℕ) = 1 then 0 else e.val
      rw [if_neg (by decide)]
  rw [hrec, Cert.LibRows.host_scatterAdd_rows_apply]
  have hz : broadcastInDim S50000x128 ![] bcast_S_S50000x128 (constant (F := Ideal) S_ .f32 0x00000000#32) (ix2 n j) = zero :=
    broadcastInDim_scalar_apply bcast_S_S50000x128 _ _
  rw [hz]
  refine congrArg (zero + ·) ?_
  unfold into
  refine Finset.sum_congr (Finset.filter_congr fun e _ => ?_) fun _ _ => rfl
  rw [hidx e]

/-- THE KERNEL PROGRAM'S HOST-SIDE TERM IS THE SPECIFICATION: at every (n, hh, d) the term's quotient of scatter-sums is the
    specification's quotient of sums over the edges that land on n. -/
theorem kernel_math (h : FVec Ideal S50000x128 .f32) (dis : FVec Ideal S50000 .f32) (Wq : FVec Ideal S128x128 .f32)
    (bq : FVec Ideal S128 .f32) (Wk : FVec Ideal S128x128 .f32) (bk : FVec Ideal S128 .f32) (Wv : FVec Ideal S128x128 .f32)
    (bv : FVec Ideal S128 .f32) (aw ab : FVec Ideal S8 .f32) (src dst : IVec S800000 32) :
    kernelTerm h dis Wq bq Wk bk Wv bv aw ab src dst = outArr h dis Wq bq Wk bk Wv bv aw ab src dst := by
  funext i
  obtain ⟨n, hh, d, rfl⟩ : ∃ (n : Fin 50000) (hh : Fin 8) (d : Fin 16), i = ix3 n hh d := ⟨i 0, i 1, i 2, eq_ix3 i⟩
  unfold kernelTerm
  -- the reshape matches (n, hh, d) with (n, 16 hh + d)
  refine (shapeCast_apply (s := S50000x128) (t := S50000x8x16) _ shapeCasts_S50000x128_S50000x8x16 (ix3 n hh d)
    (ix2 n (col hh d)) ?_).trans ?_
  · rw [Shape.rowMajor_val_two, Shape.rowMajor_val_three]
    show n.val * 128 + (16 * hh.val + d.val) = (n.val * 8 + hh.val) * 16 + d.val
    omega
  -- the quotient of the two scatter-sums, each summand read at its edge
  · rw [hostDivf_apply, scatterZero_apply, scatterZero_apply,
      Finset.sum_congr rfl fun e _ => wvF_apply h dis Wq bq Wk bk Wv bv aw ab src dst e hh d,
      Finset.sum_congr rfl fun e _ => scF_apply h dis Wq bq Wk bk aw ab src dst e hh d]
    rfl

end Cert.Attn.K

end
-- ==== Proof.LibRowGatherScatter3.lean ====
/-
  SLABS OF A RANK-3 TABLE, GATHERED AND SCATTER-ADDED, READ AT AN INDEX.

  A table of shape [N, A, B] is a stack of N slabs of shape [A, B]; E integer words, held as an [E, 1] array, each name
  a slab.

  * The slab gather (offset axes 1 and 2, collapsed axis 0, start index map [0], index vector on axis 1, slices of
    size [1, A, B]) has at result position (e, a, b) the table's element (r, a, b), where r is the word idx[e, 0] read as
    a signed integer and clamped into [0, N - 1] (gather_slabs_apply).
  * The slab scatter with an add body (window axes 1 and 2, inserted axis 0, scatter axis 0, index vector on axis 1)
    has, on the extended reals, at position (n, a, b) the operand's element plus the sum of upd[e, a, b] over the
    slabs e of the updates whose word idx[e, 0], read signed and NOT clamped, is exactly n. A word outside [0, N) is
    no n, so that slab is added nowhere (scatterAdd_slabs_apply, host_scatterAdd_slabs_apply).

  Both rest on two facts that hold for any dimension numbers: a gather reads the operand at whatever index has, on
  every axis, the sum of the clamped start, the batching coordinate and the offset coordinate (gather_eq_of_coords);
  an update lands at an operand index exactly when, on every axis, its start plus its window coordinate IS that
  index's coordinate, as integers (resultIdx?_eq_some_iff) — the range test is then automatic.
-/
import Idealize.ShloMosaic.Lib.ValueIdx
import Idealize.ShloMosaic.PureOps.Contract

noncomputable section

open scoped BigOperators

namespace Cert.LibSlabs

open Idealize.ShloMosaic Idealize.ShloMosaic.ValueIdx

/-! ## Any dimension numbers -/

section Any

/-- A gather's element at j is the operand's at i as soon as i has, axis by axis, the coordinates the gather computes. -/
theorem gather_eq_of_coords {α : Type} {s si t : Shape} {w : Nat} (d : GatherDims s si t) (x : s.Idx → α)
    (idx : IVec si w) (j : t.Idx) (i : s.Idx)
    (h : ∀ a, d.start j idx a + d.batchCoord j a + d.offCoord j a = (i a).val) :
    Host.gather d x idx j = x i := by
  unfold Host.gather
  exact congrArg x (funext fun a => Fin.ext (h a))

/-- Update j lands at operand index i exactly when start + window coordinate equals i's coordinate on every axis. -/
theorem resultIdx?_eq_some_iff {s si u : Shape} {w : Nat} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  by_cases hall : ∀ a, 0 ≤ d.start j idx a + (d.window j a : ℤ)
      ∧ d.start j idx a + (d.window j a : ℤ) < ((s.size a : ℕ) : ℤ)
  · rw [dif_pos hall]
    constructor
    · intro h a
      have hv : (d.start j idx a + (d.window j a : ℤ)).toNat = (i a).val :=
        congrArg (fun f : s.Idx => (f a).val) (Option.some.inj h)
      have := (hall a).1
      omega
    · intro h
      refine congrArg some (funext fun a => Fin.ext ?_)
      show (d.start j idx a + (d.window j a : ℤ)).toNat = (i a).val
      rw [h a]; exact Int.toNat_natCast _
  · rw [dif_neg hall]
    constructor
    · intro h; exact absurd h (by simp)
    · intro h
      refine absurd (fun a => ?_) hall
      rw [h a]
      exact ⟨Int.natCast_nonneg _, by exact_mod_cast (i a).isLt⟩

end Any

/-! ## The slab gather -/

section Gather
variable {α : Type}

/-- The slab gather's dimension numbers for a table [N, A, B], start indices [E, 1] and result [E, A, B]. -/
abbrev slabGather (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The size-1 slice fits on axis 0 only if the table has a slab. -/
theorem slabGather_pos {N E A B : Nat}
    (wf : GatherDims.WF ⟨3, ![N, A, B]⟩ ⟨2, ![E, 1]⟩ ⟨3, ![E, A, B]⟩ [1, 2] [0] [] [0] [] 1 ![1, A, B]) : 0 < N :=
  (slabGather N E A B wf).slice_le 0

variable {N E A B w : Nat}
  (wf : GatherDims.WF ⟨3, ![N, A, B]⟩ ⟨2, ![E, 1]⟩ ⟨3, ![E, A, B]⟩ [1, 2] [0] [] [0] [] 1 ![1, A, B])

/-- The one component of the start index of result (e, a, b) is read at position (e, 0) of the index array. -/
theorem slabGather_siIdx (e : Fin E) (a : Fin A) (b : Fin B) (c : Fin (slabGather N E A B wf).startIndexMap.length) :
    (slabGather N E A B wf).siIdx (ix3 e a b) c = ix2 e (0 : Fin 1) := by
  funext k
  match k with
  | ⟨0, _⟩ => rfl
  | ⟨1, _⟩ => exact Fin.ext (Nat.lt_one_iff.mp c.isLt)

/-- THE SLAB GATHER AT (e, a, b): the table at slab idx[e, 0], read signed and clamped into [0, N - 1], position (a, b). -/
theorem gather_slabs_apply (hN : 0 < N) (x : (⟨3, ![N, A, B]⟩ : Shape).Idx → α) (idx : IVec ⟨2, ![E, 1]⟩ w)
    (e : Fin E) (a : Fin A) (b : Fin B) :
    Host.gather (slabGather N E A B wf) x idx (ix3 e a b)
      = x (ix3 ⟨min (idx (ix2 e (0 : Fin 1))).toInt.toNat (N - 1), by omega⟩ a b) := by
  refine gather_eq_of_coords _ x idx _ _ fun k => ?_
  match k with
  | ⟨0, _⟩ =>
    -- the collapsed axis: the clamped word, nothing added
    show (slabGather N E A B wf).start (ix3 e a b) idx (0 : Fin 3) + (slabGather N E A B wf).batchCoord (ix3 e a b) (0 : Fin 3)
      + (slabGather N E A B wf).offCoord (ix3 e a b) (0 : Fin 3) = min (idx (ix2 e (0 : Fin 1))).toInt.toNat (N - 1)
    have hs : (slabGather N E A B wf).start (ix3 e a b) idx (0 : Fin 3)
        = min (idx (ix2 e (0 : Fin 1))).toInt.toNat (N - 1) := by
      unfold GatherDims.start
      rw [dif_pos (show (0 : Fin 3) ∈ (slabGather N E A B wf).startIndexMap from List.mem_singleton.mpr rfl),
        slabGather_siIdx]
      rfl
    have hb : (slabGather N E A B wf).batchCoord (ix3 e a b) (0 : Fin 3) = 0 := rfl
    have ho : (slabGather N E A B wf).offCoord (ix3 e a b) (0 : Fin 3) = 0 := rfl
    rw [hs, hb, ho]; rfl
  | ⟨1, _⟩ =>
    show (slabGather N E A B wf).start (ix3 e a b) idx (1 : Fin 3) + (slabGather N E A B wf).batchCoord (ix3 e a b) (1 : Fin 3)
      + (slabGather N E A B wf).offCoord (ix3 e a b) (1 : Fin 3) = a.val
    have hs : (slabGather N E A B wf).start (ix3 e a b) idx (1 : Fin 3) = 0 := rfl
    have hb : (slabGather N E A B wf).batchCoord (ix3 e a b) (1 : Fin 3) = 0 := rfl
    have ho : (slabGather N E A B wf).offCoord (ix3 e a b) (1 : Fin 3) = a.val := rfl
    rw [hs, hb, ho]; omega
  | ⟨2, _⟩ =>
    show (slabGather N E A B wf).start (ix3 e a b) idx (2 : Fin 3) + (slabGather N E A B wf).batchCoord (ix3 e a b) (2 : Fin 3)
      + (slabGather N E A B wf).offCoord (ix3 e a b) (2 : Fin 3) = b.val
    have hs : (slabGather N E A B wf).start (ix3 e a b) idx (2 : Fin 3) = 0 := rfl
    have hb : (slabGather N E A B wf).batchCoord (ix3 e a b) (2 : Fin 3) = 0 := rfl
    have ho : (slabGather N E A B wf).offCoord (ix3 e a b) (2 : Fin 3) = b.val := rfl
    rw [hs, hb, ho]; omega

end Gather

/-! ## The slab scatter with an add body -/

section Scatter

/-- The slab scatter's dimension numbers for an operand [N, A, B], scatter indices [E, 1] and updates [E, A, B]. -/
abbrev slabScatter (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat} (wf : ScatterDims.WF ⟨3, ![N, A, B]⟩ ⟨2, ![E, 1]⟩ ⟨3, ![E, A, B]⟩ [1, 2] [0] [0] 1)

/-- The one component of the start index of update (e, a, b) is read at position (e, 0) of the index array. -/
theorem slabScatter_siIdx (e : Fin E) (a : Fin A) (b : Fin B)
    (c : Fin (slabScatter N E A B wf).scatterDimsToOperandDims.length) :
    (slabScatter N E A B wf).siIdx (ix3 e a b) c = ix2 e (0 : Fin 1) := by
  funext k
  match k with
  | ⟨0, _⟩ => rfl
  | ⟨1, _⟩ => exact Fin.ext (Nat.lt_one_iff.mp c.isLt)

/-- WHERE A SLAB'S ELEMENT LANDS: update (e, a', b') goes to operand position (n, a, b) exactly when the word idx[e, 0],
    read signed, is n, and (a', b') = (a, b). -/
theorem slabScatter_lands_iff (idx : IVec ⟨2, ![E, 1]⟩ w) (e : Fin E) (a' : Fin A) (b' : Fin B) (n : Fin N)
    (a : Fin A) (b : Fin B) :
    (slabScatter N E A B wf).resultIdx? (ix3 e a' b') idx = some (ix3 n a b)
      ↔ (idx (ix2 e (0 : Fin 1))).toInt = (n.val : ℤ) ∧ a' = a ∧ b' = b := by
  rw [resultIdx?_eq_some_iff]
  -- axis 0 carries the word and no window coordinate; axes 1 and 2 no word and the update's own coordinates
  have h0 : (slabScatter N E A B wf).start (ix3 e a' b') idx (0 : Fin 3)
      + (((slabScatter N E A B wf).window (ix3 e a' b') (0 : Fin 3) : ℕ) : ℤ) = (idx (ix2 e (0 : Fin 1))).toInt := by
    have hs : (slabScatter N E A B wf).start (ix3 e a' b') idx (0 : Fin 3) = (idx (ix2 e (0 : Fin 1))).toInt := by
      unfold ScatterDims.start
      rw [dif_pos (show (0 : Fin 3) ∈ (slabScatter N E A B wf).scatterDimsToOperandDims from
        List.mem_singleton.mpr rfl), slabScatter_siIdx]
    have hw : (slabScatter N E A B wf).window (ix3 e a' b') (0 : Fin 3) = 0 := rfl
    rw [hs, hw]; simp
  have h1 : (slabScatter N E A B wf).start (ix3 e a' b') idx (1 : Fin 3)
      + (((slabScatter N E A B wf).window (ix3 e a' b') (1 : Fin 3) : ℕ) : ℤ) = (a'.val : ℤ) := by
    have hs : (slabScatter N E A B wf).start (ix3 e a' b') idx (1 : Fin 3) = 0 := rfl
    have hw : (slabScatter N E A B wf).window (ix3 e a' b') (1 : Fin 3) = a'.val := rfl
    rw [hs, hw]; simp
  have h2 : (slabScatter N E A B wf).start (ix3 e a' b') idx (2 : Fin 3)
      + (((slabScatter N E A B wf).window (ix3 e a' b') (2 : Fin 3) : ℕ) : ℤ) = (b'.val : ℤ) := by
    have hs : (slabScatter N E A B wf).start (ix3 e a' b') idx (2 : Fin 3) = 0 := rfl
    have hw : (slabScatter N E A B wf).window (ix3 e a' b') (2 : Fin 3) = b'.val := rfl
    rw [hs, hw]; simp
  constructor
  · intro h
    have e0 := h (0 : Fin 3)
    have e1 := h (1 : Fin 3)
    have e2 := h (2 : Fin 3)
    rw [h0] at e0; rw [h1] at e1; rw [h2] at e2
    refine ⟨e0, Fin.ext ?_, Fin.ext ?_⟩
    · exact Int.ofNat.inj e1
    · exact Int.ofNat.inj e2
  · rintro ⟨hn, rfl, rfl⟩ k
    match k with
    | ⟨0, _⟩ => exact h0.trans hn
    | ⟨1, _⟩ => exact h1
    | ⟨2, _⟩ => exact h2

/-- THE SLAB SCATTER-ADD AT (n, a, b) on the extended reals: the operand's element plus the sum of upd[e, a, b] over the
    update slabs e whose word idx[e, 0], read signed and not clamped, is n. -/
theorem scatterAdd_slabs_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (slabScatter N E A B wf) x idx upd (ix3 n a b)
      = x (ix3 n a b) + ∑ e ∈ Finset.univ.filter (fun e : Fin E => (idx (ix2 e (0 : Fin 1))).toInt = (n.val : ℤ)),
          upd (ix3 e a b) := by
  unfold Ideal.hostScatterAdd
  -- the updates that land at (n, a, b) are the images of the slabs e with idx[e, 0] = n under e ↦ (e, a, b)
  have hinj : Function.Injective (fun e : Fin E => (ix3 e a b : (⟨3, ![E, A, B]⟩ : Shape).Idx)) :=
    fun e e' h => congrFun h (0 : Fin 3)
  have hset : Finset.univ.filter (fun u : (⟨3, ![E, A, B]⟩ : Shape).Idx =>
        (slabScatter N E A B wf).resultIdx? u idx = some (ix3 n a b))
      = (Finset.univ.filter (fun e : Fin E => (idx (ix2 e (0 : Fin 1))).toInt = (n.val : ℤ))).map ⟨_, hinj⟩ := by
    ext u
    obtain ⟨e, a', b', rfl⟩ : ∃ (e : Fin E) (a' : Fin A) (b' : Fin B), u = ix3 e a' b' := ⟨u 0, u 1, u 2, eq_ix3 u⟩
    rw [Finset.mem_filter, Finset.mem_map, slabScatter_lands_iff]
    constructor
    · rintro ⟨-, hn, rfl, rfl⟩
      exact ⟨e, Finset.mem_filter.mpr ⟨Finset.mem_univ _, hn⟩, rfl⟩
    · rintro ⟨e', he', h⟩
      have h0 : e' = e := congrFun h (0 : Fin 3)
      have h1 : a = a' := congrFun h (1 : Fin 3)
      have h2 : b = b' := congrFun h (2 : Fin 3)
      subst h0
      exact ⟨Finset.mem_univ _, (Finset.mem_filter.mp he').2, h1.symm, h2.symm⟩
  rw [hset, Finset.sum_map]
  rfl

/-- The same of the host operation at the exact instance, for any float format. -/
theorem host_scatterAdd_slabs_apply {φ : FTy} (x : FVec Ideal ⟨3, ![N, A, B]⟩ φ) (idx : IVec ⟨2, ![E, 1]⟩ w)
    (upd : FVec Ideal ⟨3, ![E, A, B]⟩ φ) (n : Fin N) (a : Fin A) (b : Fin B) :
    Host.scatterAdd (F := Ideal) (slabScatter N E A B wf) x idx upd (ix3 n a b)
      = x (ix3 n a b) + ∑ e ∈ Finset.univ.filter (fun e : Fin E => (idx (ix2 e (0 : Fin 1))).toInt = (n.val : ℤ)),
          upd (ix3 e a b) := by
  unfold Host.scatterAdd
  rw [Ideal.hostScatterAdd_def]
  exact scatterAdd_slabs_apply wf x idx upd n a b

end Scatter

end Cert.LibSlabs

end
-- ==== Proof.RefValue.lean ====
/-
  THE REFERENCE COMPUTES THE SPECIFICATION.

  The reference program is a chain of whole-array operations; read at one index, each stage is a stage of the
  specification (Spec.lean):

  * a projection h·W + b, at (n, j), is a row of h against a column of W plus b[j]; reshaped to [50000, 8, 16] its
    entry (n, a, b) is the projection's entry at column 16·a + b, because (n·8 + a)·16 + b = n·128 + (16·a + b);
  * the index arrays the gathers read hold, at edge e, the edge's word wrapped once when negative; a gather clamps
    that word, read signed, into [0, 49999]: together the row "rowOf";
  * the sum over the 16 lanes of a head of K[s e]·Q[t e], plus the bias dis[t e]·aw + ab gathered at the destination,
    is the logit; divided by 4, clipped into [-5, 5] and exponentiated it is the score;
  * a scatter-add from a zero array puts at node n the zero plus the sum over the edges whose destination word, read
    signed and neither wrapped nor clamped, is n — of V[s e]·score for the numerator, of the score for the denominator;
  * the result is their quotient, the denominator repeated along the 16 lanes.

  No law of arithmetic is used beyond reading each operation at an index: the two sides are the same expression.
-/
import proofs.«167470_j85504208928874_1_alg».proof.Defs
import proofs.«167470_j85504208928874_1_alg».proof.Proof.Gen.ReferenceIdeal.Run
import proofs.«167470_j85504208928874_1_alg».proof.Proof.Gen.ReferenceIdeal.Read
import proofs.«167470_j85504208928874_1_alg».proof.Proof.Gen.Pre_finite_inputs
import proofs.«167470_j85504208928874_1_alg».proof.Proof.Spec
import proofs.«167470_j85504208928874_1_alg».proof.Proof.LibRowGatherScatter
import proofs.«167470_j85504208928874_1_alg».proof.Proof.LibRowGatherScatter3

noncomputable section

open scoped BigOperators

namespace Cert.Attn.Ref

open Idealize.ShloMosaic Idealize.ShloMosaic.ValueIdx Idealize.ShloMosaic.SageSpec Idealize.ShloMosaic.TcCoe Idealize.SL.Sem
open Cert.ReferenceIdeal Cert.ReferenceIdeal.Gen Cert.ReferenceIdeal.Read

/-- A rank-1 array as a function of its one coordinate. -/
abbrev un {n : Nat} {α : Type} (v : (⟨1, ![n]⟩ : Shape).Idx → α) : Fin n → α := fun j => v (ix1 j)

/-! ## The two kinds of gather and of scatter-add, over arbitrary operands -/

/-- A slab gather whose index array holds at (e, 0) the wrapped word of w reads slab rowOf w. -/
theorem gather3_at (T : (⟨S50000x8x16, .f32⟩ : BufTy).Contents (Elt Ideal)) (I : (⟨S800000x1, .i32⟩ : BufTy).Contents (Elt Ideal)) (w : BitVec 32)
    (e : Fin 800000) (a : Fin 8) (b : Fin 16) (hI : I (ix2 e (0 : Fin 1)) = wrapW w) :
    Host.gather gather_S50000x8x16_S800000x1_S800000x8x16_12_0_n_n_0_1_1816 T I (ix3 e a b) = T (ix3 (rowOf w) a b) := by
  refine (Cert.LibSlabs.gather_slabs_apply (N := 50000) (E := 800000) (A := 8) (B := 16)
    gather_S50000x8x16_S800000x1_S800000x8x16_12_0_n_n_0_1_1816_wf (by decide) T I e a b).trans ?_
  refine congrArg (fun r : Fin 50000 => T (ix3 r a b)) (Fin.ext ?_)
  show min (I (ix2 e (0 : Fin 1))).toInt.toNat (50000 - 1) = min (wrapW w).toInt.toNat (50000 - 1)
  rw [hI]

/-- The same of a row gather of a [50000, 8] table. -/
theorem gather2_at (T : (⟨S50000x8, .f32⟩ : BufTy).Contents (Elt Ideal)) (I : (⟨S800000x1, .i32⟩ : BufTy).Contents (Elt Ideal)) (w : BitVec 32)
    (e : Fin 800000) (a : Fin 8) (hI : I (ix2 e (0 : Fin 1)) = wrapW w) :
    Host.gather gather_S50000x8_S800000x1_S800000x8_1_0_n_n_0_1_18 T I (ix2 e a) = T (ix2 (rowOf w) a) := by
  refine (Cert.LibRows.gather_rows_apply (N := 50000) (E := 800000) (C := 8) (by decide)
    gather_S50000x8_S800000x1_S800000x8_1_0_n_n_0_1_18_wf T I e a).trans ?_
  refine congrArg (fun r : Fin 50000 => T (ix2 r a)) (Fin.ext ?_)
  show min (I (ix2 e (0 : Fin 1))).toInt.toNat (50000 - 1) = min (wrapW w).toInt.toNat (50000 - 1)
  rw [hI]

/-- The slab scatter-add at (n, a, b): the operand plus the updates of the edges whose word is n. -/
theorem scatter3_at (X : (⟨S50000x8x16, .f32⟩ : BufTy).Contents (Elt Ideal)) (I : (⟨S800000x1, .i32⟩ : BufTy).Contents (Elt Ideal))
    (Y : (⟨S800000x8x16, .f32⟩ : BufTy).Contents (Elt Ideal)) (n : Fin 50000) (a : Fin 8) (b : Fin 16) :
    Host.scatterAdd (F := Ideal) (φ := .f32) scatter_S50000x8x16_S800000x1_S800000x8x16_12_0_0_1 X I Y (ix3 n a b)
      = X (ix3 n a b) + ∑ e ∈ Finset.univ.filter (fun e : Fin 800000 => (I (ix2 e (0 : Fin 1))).toInt = (n.val : ℤ)),
          Y (ix3 e a b) :=
  Cert.LibSlabs.host_scatterAdd_slabs_apply (N := 50000) (E := 800000) (A := 8) (B := 16)
    scatter_S50000x8x16_S800000x1_S800000x8x16_12_0_0_1_wf X I Y n a b

/-- The row scatter-add at (n, a). -/
theorem scatter2_at (X : (⟨S50000x8, .f32⟩ : BufTy).Contents (Elt Ideal)) (I : (⟨S800000x1, .i32⟩ : BufTy).Contents (Elt Ideal))
    (Y : (⟨S800000x8, .f32⟩ : BufTy).Contents (Elt Ideal)) (n : Fin 50000) (a : Fin 8) :
    Host.scatterAdd (F := Ideal) (φ := .f32) scatter_S50000x8_S800000x1_S800000x8_1_0_0_1 X I Y (ix2 n a)
      = X (ix2 n a) + ∑ e ∈ Finset.univ.filter (fun e : Fin 800000 => (I (ix2 e (0 : Fin 1))).toInt = (n.val : ℤ)),
          Y (ix2 e a) :=
  Cert.LibRows.host_scatterAdd_rows_apply (N := 50000) (E := 800000) (C := 8)
    scatter_S50000x8_S800000x1_S800000x8_1_0_0_1_wf X I Y n a

/-! ## The stages, at an index -/

section Stages
variable (x0 : (⟨S50000x128, .f32⟩ : BufTy).Contents (Elt Ideal)) (x1 : (⟨S50000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 x9 : (⟨S8, .f32⟩ : BufTy).Contents (Elt Ideal)) (x10 x11 : (⟨S800000, .i32⟩ : BufTy).Contents (Elt Ideal))

/-- Q at (n, j). -/
theorem q_row (n : Fin 50000) (j : Fin 128) : val_main_v3 (F := Ideal) x0 x2 x3 (ix2 n j) = lin x0 x2 (un x3) n j := by
  have hl : ∀ k : Fin 128, lidx_main_v0 (ix2 n j) k = ix2 n k := fun k => by
    funext a; match a with | ⟨0, _⟩ => rfl | ⟨1, _⟩ => rfl
  have hr : ∀ k : Fin 128, ridx_main_v0 (ix2 n j) k = ix2 k j := fun k => by
    funext a; match a with | ⟨0, _⟩ => rfl | ⟨1, _⟩ => rfl
  have hb : idx_main_v1 (idx_main_v2 (ix2 n j)) = ix1 j := by funext a; match a with | ⟨0, _⟩ => rfl
  rw [val_main_v3_apply, val_main_v0_apply, val_main_v2_apply, val_main_v1_apply, Ideal.addf_def, hb]
  simp only [hl, hr]
  rfl

/-- K at (n, j). -/
theorem k_row (n : Fin 50000) (j : Fin 128) : val_main_v8 (F := Ideal) x0 x4 x5 (ix2 n j) = lin x0 x4 (un x5) n j := by
  have hl : ∀ k : Fin 128, lidx_main_v5 (ix2 n j) k = ix2 n k := fun k => by
    funext a; match a with | ⟨0, _⟩ => rfl | ⟨1, _⟩ => rfl
  have hr : ∀ k : Fin 128, ridx_main_v5 (ix2 n j) k = ix2 k j := fun k => by
    funext a; match a with | ⟨0, _⟩ => rfl | ⟨1, _⟩ => rfl
  have hb : idx_main_v6 (idx_main_v7 (ix2 n j)) = ix1 j := by funext a; match a with | ⟨0, _⟩ => rfl
  rw [val_main_v8_apply, val_main_v5_apply, val_main_v7_apply, val_main_v6_apply, Ideal.addf_def, hb]
  simp only [hl, hr]
  rfl

/-- V at (n, j). -/
theorem v_row (n : Fin 50000) (j : Fin 128) : val_main_v13 (F := Ideal) x0 x6 x7 (ix2 n j) = lin x0 x6 (un x7) n j := by
  have hl : ∀ k : Fin 128, lidx_main_v10 (ix2 n j) k = ix2 n k := fun k => by
    funext a; match a with | ⟨0, _⟩ => rfl | ⟨1, _⟩ => rfl
  have hr : ∀ k : Fin 128, ridx_main_v10 (ix2 n j) k = ix2 k j := fun k => by
    funext a; match a with | ⟨0, _⟩ => rfl | ⟨1, _⟩ => rfl
  have hb : idx_main_v11 (idx_main_v12 (ix2 n j)) = ix1 j := by funext a; match a with | ⟨0, _⟩ => rfl
  rw [val_main_v13_apply, val_main_v10_apply, val_main_v12_apply, val_main_v11_apply, Ideal.addf_def, hb]
  simp only [hl, hr]
  rfl

/-- Head a, lane b of row n sits at row-major position n·128 + (16·a + b) of the [50000, 128] array. -/
theorem reshape_q (n : Fin 50000) (a : Fin 8) (b : Fin 16) : idx_main_v4 (ix3 n a b) = ix2 n (col a b) := by
  have ha := a.isLt
  have hb := b.isLt
  funext k
  match k with
  | ⟨0, _⟩ => exact Fin.ext (by show ((n.val * 8 + a.val) * 16 + b.val) / 128 = n.val; omega)
  | ⟨1, _⟩ => exact Fin.ext (by show ((n.val * 8 + a.val) * 16 + b.val) % 128 = 16 * a.val + b.val; omega)

theorem reshape_k (n : Fin 50000) (a : Fin 8) (b : Fin 16) : idx_main_v9 (ix3 n a b) = ix2 n (col a b) := by
  have ha := a.isLt
  have hb := b.isLt
  funext k
  match k with
  | ⟨0, _⟩ => exact Fin.ext (by show ((n.val * 8 + a.val) * 16 + b.val) / 128 = n.val; omega)
  | ⟨1, _⟩ => exact Fin.ext (by show ((n.val * 8 + a.val) * 16 + b.val) % 128 = 16 * a.val + b.val; omega)

theorem reshape_v (n : Fin 50000) (a : Fin 8) (b : Fin 16) : idx_main_v14 (ix3 n a b) = ix2 n (col a b) := by
  have ha := a.isLt
  have hb := b.isLt
  funext k
  match k with
  | ⟨0, _⟩ => exact Fin.ext (by show ((n.val * 8 + a.val) * 16 + b.val) / 128 = n.val; omega)
  | ⟨1, _⟩ => exact Fin.ext (by show ((n.val * 8 + a.val) * 16 + b.val) % 128 = 16 * a.val + b.val; omega)

/-- The index arrays of the four gathers hold the wrapped word of their edge. -/
theorem wrap_k (e : Fin 800000) : val_main_v28 (F := Ideal) x10 (ix2 e (0 : Fin 1)) = wrapW (un x10 e) := by
  have hi : idx_main_v28 (ix2 e (0 : Fin 1)) = ix1 e := by funext a; match a with | ⟨0, _⟩ => rfl
  rw [val_main_v28_apply, hi, val_main_v27_apply, val_main_v24_apply, val_main_v26_apply, val_main_v23_apply,
    val_main_v25_apply]
  rfl

theorem wrap_q (e : Fin 800000) : val_main_v35 (F := Ideal) x11 (ix2 e (0 : Fin 1)) = wrapW (un x11 e) := by
  have hi : idx_main_v35 (ix2 e (0 : Fin 1)) = ix1 e := by funext a; match a with | ⟨0, _⟩ => rfl
  rw [val_main_v35_apply, hi, val_main_v34_apply, val_main_v31_apply, val_main_v33_apply, val_main_v30_apply,
    val_main_v32_apply]
  rfl

theorem wrap_b (e : Fin 800000) : val_main_v44 (F := Ideal) x11 (ix2 e (0 : Fin 1)) = wrapW (un x11 e) := by
  have hi : idx_main_v44 (ix2 e (0 : Fin 1)) = ix1 e := by funext a; match a with | ⟨0, _⟩ => rfl
  rw [val_main_v44_apply, hi, val_main_v43_apply, val_main_v40_apply, val_main_v42_apply, val_main_v39_apply,
    val_main_v41_apply]
  rfl

theorem wrap_v (e : Fin 800000) : val_main_v56 (F := Ideal) x10 (ix2 e (0 : Fin 1)) = wrapW (un x10 e) := by
  have hi : idx_main_v56 (ix2 e (0 : Fin 1)) = ix1 e := by funext a; match a with | ⟨0, _⟩ => rfl
  rw [val_main_v56_apply, hi, val_main_v55_apply, val_main_v52_apply, val_main_v54_apply, val_main_v51_apply,
    val_main_v53_apply]
  rfl

/-- K gathered at the source: edge e, head a, lane b. -/
theorem k_edge (e : Fin 800000) (a : Fin 8) (b : Fin 16) :
    val_main_v29 (F := Ideal) x0 x4 x5 x10 (ix3 e a b) = lin x0 x4 (un x5) (rowOf (un x10 e)) (col a b) := by
  unfold val_main_v29
  refine (gather3_at (val_main_v9 (F := Ideal) x0 x4 x5) (val_main_v28 (F := Ideal) x10) (un x10 e) e a b
    (wrap_k x10 e)).trans ?_
  rw [val_main_v9_apply, reshape_k, k_row]

/-- Q gathered at the destination. -/
theorem q_edge (e : Fin 800000) (a : Fin 8) (b : Fin 16) :
    val_main_v36 (F := Ideal) x0 x2 x3 x11 (ix3 e a b) = lin x0 x2 (un x3) (rowOf (un x11 e)) (col a b) := by
  unfold val_main_v36
  refine (gather3_at (val_main_v4 (F := Ideal) x0 x2 x3) (val_main_v35 (F := Ideal) x11) (un x11 e) e a b
    (wrap_q x11 e)).trans ?_
  rw [val_main_v4_apply, reshape_q, q_row]

/-- V gathered at the source. -/
theorem v_edge (e : Fin 800000) (a : Fin 8) (b : Fin 16) :
    val_main_v57 (F := Ideal) x0 x6 x7 x10 (ix3 e a b) = lin x0 x6 (un x7) (rowOf (un x10 e)) (col a b) := by
  unfold val_main_v57
  refine (gather3_at (val_main_v14 (F := Ideal) x0 x6 x7) (val_main_v56 (F := Ideal) x10) (un x10 e) e a b
    (wrap_v x10 e)).trans ?_
  rw [val_main_v14_apply, reshape_v, v_row]

/-- The attention bias of node n in head a. -/
theorem bias_node (n : Fin 50000) (a : Fin 8) :
    val_main_v22 (F := Ideal) x1 x8 x9 (ix2 n a) = un x1 n * un x8 a + un x9 a := by
  have h1 : idx_main_v15 (idx_main_v17 (ix2 n a)) = ix1 n := by funext k; match k with | ⟨0, _⟩ => rfl
  have h8 : idx_main_v16 (idx_main_v18 (ix2 n a)) = ix1 a := by funext k; match k with | ⟨0, _⟩ => rfl
  have h9 : idx_main_v20 (idx_main_v21 (ix2 n a)) = ix1 a := by funext k; match k with | ⟨0, _⟩ => rfl
  rw [val_main_v22_apply, val_main_v19_apply, val_main_v17_apply, val_main_v15_apply, val_main_v18_apply,
    val_main_v16_apply, val_main_v21_apply, val_main_v20_apply, Ideal.addf_def, Ideal.mulf_def, h1, h8, h9]

/-- The bias gathered at the destination of edge e. -/
theorem bias_edge (e : Fin 800000) (a : Fin 8) :
    val_main_v45 (F := Ideal) x1 x8 x9 x11 (ix2 e a) = un x1 (rowOf (un x11 e)) * un x8 a + un x9 a := by
  unfold val_main_v45
  refine (gather2_at (val_main_v22 (F := Ideal) x1 x8 x9) (val_main_v44 (F := Ideal) x11) (un x11 e) e a
    (wrap_b x11 e)).trans ?_
  rw [bias_node]

/-- The logit of edge e in head a. -/
theorem logit_edge (e : Fin 800000) (a : Fin 8) :
    val_main_v46 (F := Ideal) x0 x1 x2 x3 x4 x5 x8 x9 x10 x11 (ix2 e a)
      = logit x0 (un x1) x2 x4 (un x3) (un x5) (un x8) (un x9) (un x10) (un x11) e a := by
  have hz : val_main_cst (F := Ideal) (Shape.Idx.first h_S_) = 0 := Ideal.ofBits_zero_f32
  rw [val_main_v46_apply, val_main_v38_apply, Ideal.addf_def, bias_edge, hz, zero_add]
  unfold logit
  refine congrArg (· + _) (Finset.sum_congr rfl fun d _ => ?_)
  have hi : idx_main_v38 (ix2 e a) d = ix3 e a d := by
    funext k; match k with | ⟨0, _⟩ => rfl | ⟨1, _⟩ => rfl | ⟨2, _⟩ => rfl
  rw [hi, val_main_v37_apply, Ideal.mulf_def, k_edge, q_edge]

/-- The score of edge e in head a: the logit over 4, clipped, exponentiated. -/
theorem score_edge (e : Fin 800000) (a : Fin 8) :
    val_main_v50 (F := Ideal) x0 x1 x2 x3 x4 x5 x8 x9 x10 x11 (ix2 e a)
      = score x0 (un x1) x2 x4 (un x3) (un x5) (un x8) (un x9) (un x10) (un x11) e a := by
  rw [val_main_v50_apply, val_main_v49_apply, val_main_call0_v2_apply, val_main_v48_apply, logit_edge,
    val_main_call0_v4_apply, val_main_call0_v1_apply, val_main_v47_apply]
  rfl

/-- The weighted value of edge e at head a, lane b. -/
theorem wv_edge (e : Fin 800000) (a : Fin 8) (b : Fin 16) :
    val_main_v60 (F := Ideal) x0 x1 x2 x3 x4 x5 x6 x7 x8 x9 x10 x11 (ix3 e a b)
      = lin x0 x6 (un x7) (rowOf (un x10 e)) (col a b)
        * score x0 (un x1) x2 x4 (un x3) (un x5) (un x8) (un x9) (un x10) (un x11) e a := by
  have hi : idx_main_v58 (idx_main_v59 (ix3 e a b)) = ix2 e a := by
    funext k; match k with | ⟨0, _⟩ => rfl | ⟨1, _⟩ => rfl
  rw [val_main_v60_apply, Ideal.mulf_def, v_edge, val_main_v59_apply, val_main_v58_apply, hi, score_edge]

/-- The scatter-adds read the destination word itself. -/
theorem dst_num (e : Fin 800000) : val_main_v62 (F := Ideal) x11 (ix2 e (0 : Fin 1)) = un x11 e := by
  have hi : idx_main_v62 (ix2 e (0 : Fin 1)) = ix1 e := by funext a; match a with | ⟨0, _⟩ => rfl
  rw [val_main_v62_apply, hi]

theorem dst_den (e : Fin 800000) : val_main_v65 (F := Ideal) x11 (ix2 e (0 : Fin 1)) = un x11 e := by
  have hi : idx_main_v65 (ix2 e (0 : Fin 1)) = ix1 e := by funext a; match a with | ⟨0, _⟩ => rfl
  rw [val_main_v65_apply, hi]

/-- The numerator at (n, a, b). -/
theorem num_node (n : Fin 50000) (a : Fin 8) (b : Fin 16) :
    val_main_v63 (F := Ideal) x0 x1 x2 x3 x4 x5 x6 x7 x8 x9 x10 x11 (ix3 n a b)
      = zero + ∑ e ∈ into (un x11) n, lin x0 x6 (un x7) (rowOf (un x10 e)) (col a b)
          * score x0 (un x1) x2 x4 (un x3) (un x5) (un x8) (un x9) (un x10) (un x11) e a := by
  unfold val_main_v63
  refine (scatter3_at (val_main_v61 (F := Ideal)) (val_main_v62 (F := Ideal) x11)
    (val_main_v60 (F := Ideal) x0 x1 x2 x3 x4 x5 x6 x7 x8 x9 x10 x11) n a b).trans ?_
  have hz : val_main_v61 (F := Ideal) (ix3 n a b) = zero := by rw [val_main_v61_apply]; rfl
  unfold into
  rw [hz]
  refine congrArg (zero + ·) (Finset.sum_congr (Finset.filter_congr fun e _ => by rw [dst_num]) fun e _ => ?_)
  exact wv_edge x0 x1 x2 x3 x4 x5 x6 x7 x8 x9 x10 x11 e a b

/-- The denominator at (n, a). -/
theorem den_node (n : Fin 50000) (a : Fin 8) :
    val_main_v66 (F := Ideal) x0 x1 x2 x3 x4 x5 x8 x9 x10 x11 (ix2 n a)
      = zero + ∑ e ∈ into (un x11) n, score x0 (un x1) x2 x4 (un x3) (un x5) (un x8) (un x9) (un x10) (un x11) e a := by
  unfold val_main_v66
  refine (scatter2_at (val_main_v64 (F := Ideal)) (val_main_v65 (F := Ideal) x11)
    (val_main_v50 (F := Ideal) x0 x1 x2 x3 x4 x5 x8 x9 x10 x11) n a).trans ?_
  have hz : val_main_v64 (F := Ideal) (ix2 n a) = zero := by rw [val_main_v64_apply]; rfl
  unfold into
  rw [hz]
  refine congrArg (zero + ·) (Finset.sum_congr (Finset.filter_congr fun e _ => by rw [dst_den]) fun e _ => ?_)
  exact score_edge x0 x1 x2 x3 x4 x5 x8 x9 x10 x11 e a

/-- THE LAST STAGE IS THE SPECIFICATION'S ARRAY. -/
theorem stage_eq :
    val_main_v69 (F := Ideal) x0 x1 x2 x3 x4 x5 x6 x7 x8 x9 x10 x11 = outArr x0 x1 x2 x3 x4 x5 x6 x7 x8 x9 x10 x11 := by
  funext i
  obtain ⟨n, a, b, rfl⟩ : ∃ (n : Fin 50000) (a : Fin 8) (b : Fin 16), i = ix3 n a b := ⟨i 0, i 1, i 2, eq_ix3 i⟩
  have hi : idx_main_v67 (idx_main_v68 (ix3 n a b)) = ix2 n a := by
    funext k; match k with | ⟨0, _⟩ => rfl | ⟨1, _⟩ => rfl
  rw [val_main_v69_apply, Ideal.hostDivf_def, num_node, val_main_v68_apply, val_main_v67_apply, hi, den_node]
  rfl

end Stages

/-! ## The run's result -/

/-- THE REFERENCE'S RESULT is the specification's array of the arguments as the run found them. -/
theorem ref_value (m' : (ℓ : Loc nD τ sig) → Buf (Elt Ideal) ℓ) (c : Dev nD) :
    Cert.ReferenceIdeal.Value.res_main_v69 (F := Ideal) m' c
      = outArr (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) (m' ((c.tc : Thread nD τ).loc main_arg11)) :=
  (val_main_v69_eq (F := Ideal) m' c).trans (stage_eq _ _ _ _ _ _ _ _ _ _ _ _)

/-- The reference runs and leaves its arguments as it found them: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

end Cert.Attn.Ref

end
-- ==== Proof.lean ====
/-
  EDGE ATTENTION WITH SCATTER-SUM AGGREGATION ON A GRAPH: 50000 nodes with 128 features, 800000 edges given by a source
  word and a destination word each, 8 heads of 16 lanes.

  Both programs compute, for node n, head hh and lane d,
      out[n, hh, d] = (0 + Σ_{e : dst e = n} V[s e, 16 hh + d] · score e hh) / (0 + Σ_{e : dst e = n} score e hh),
      score e hh   = exp (clip ((Σ_{d'} K[s e, 16 hh + d'] · Q[t e, 16 hh + d'] + dis[t e] · aw[hh] + ab[hh]) / 4, -5, 5)),
  with Q = h·Wq + bq, K = h·Wk + bk, V = h·Wv + bv, the rows s e and t e read by the gathers (the word wrapped once when
  negative, then clamped into the table) and the sums over the edges whose destination word is exactly n
  (Proof/Spec.lean states this as `outArr`).

  The kernel program computes it 128 columns wide: a projection region (three matrix products on blocks of 5000 rows, at
  the extended reals the rounding of the operands to a shorter format is the identity), host gathers of the rows, an
  edge region (per head a 16-lane sum, the bias, the division by 4, the clip, the exponential, on blocks of 4000 edges),
  host scatter-sums, their quotient and a reshape to [50000, 8, 16]. The reference computes it [·, 8, 16]-shaped with
  host operations only. The two agree index by index by re-indexing alone (column 16 hh + d is lane d of head hh): no law
  of arithmetic beyond the terms as written is used, so the precondition is never opened.

  Modules: Proof/ProjValue.lean and Proof/EdgeValue.lean (what each kernel region leaves in its output arrays, as whole
  arrays), Proof/KernelHost.lean (the host stretches around them), Proof/KernelMath.lean (the kernel program's term is
  the specification), Proof/RefValue.lean (the reference's term is the specification), Proof/KernelRun.lean (the kernel
  program's run with its result named).
-/
import proofs.«167470_j85504208928874_1_alg».proof.Defs
import proofs.«167470_j85504208928874_1_alg».proof.Proof.Gen.Kernel
import proofs.«167470_j85504208928874_1_alg».proof.Proof.Gen.Kernel.Skeleton
import proofs.«167470_j85504208928874_1_alg».proof.Proof.LaunchKernel
import proofs.«167470_j85504208928874_1_alg».proof.Proof.Gen.Kernel.Points
import proofs.«167470_j85504208928874_1_alg».proof.Proof.FrameKernel
import proofs.«167470_j85504208928874_1_alg».proof.Proof.Gen.KernelIdeal
import proofs.«167470_j85504208928874_1_alg».proof.Proof.Gen.KernelIdeal.Skeleton
import proofs.«167470_j85504208928874_1_alg».proof.Proof.LaunchKernelIdeal
import proofs.«167470_j85504208928874_1_alg».proof.Proof.Gen.KernelIdeal.Points
import proofs.«167470_j85504208928874_1_alg».proof.Proof.FrameKernelIdeal
import proofs.«167470_j85504208928874_1_alg».proof.Proof.Gen.ReferenceIdeal
import proofs.«167470_j85504208928874_1_alg».proof.Proof.Gen.Pre_finite_inputs
import proofs.«167470_j85504208928874_1_alg».proof.Proof.KernelRun
import proofs.«167470_j85504208928874_1_alg».proof.Proof.KernelHost
import proofs.«167470_j85504208928874_1_alg».proof.Proof.ProjValue
import proofs.«167470_j85504208928874_1_alg».proof.Proof.EdgeValue
import proofs.«167470_j85504208928874_1_alg».proof.Proof.KernelMath
import proofs.«167470_j85504208928874_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.GenP.frame m ρ

/-- So does its reading at the extended reals. -/
theorem frame_kernelIdeal : Cert.frame_KernelIdeal := fun m ρ _ => Cert.KernelIdeal.GenP.frame m ρ

/-- So does the reference. -/
theorem frame_referenceIdeal : Cert.frame_ReferenceIdeal := Cert.Attn.Ref.ref_frame

/-- The idealization rewrote no operation. -/
theorem preserves : Cert.preserves_Kernel_KernelIdeal := trivial

/-- From memories that agree on the arguments both programs end with the result array at `outArr` of the arguments. -/
theorem algebraic : Cert.algebraic_KernelIdeal_ReferenceIdeal := by
  intro m ρ m' ρ' _ hagree
  refine ⟨fun c => Cert.Attn.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KernelIdeal.GenP.run_result (F := Ideal) m ρ)
    rw [Cert.Attn.K.kernel_value m ρ c
      (Cert.Attn.ProjValue.proj_q _ c) (Cert.Attn.ProjValue.proj_k _ c) (Cert.Attn.ProjValue.proj_v _ c)
      (Cert.Edge.edge_wv _ c) (Cert.Edge.edge_sc _ c)]
    exact Cert.Attn.K.kernel_math _ _ _ _ _ _ _ _ _ _ _ _
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.Attn.Ref.ref_value m' c, h0, h1, h2, h3, h4, h5, h6, h7, h8, h9, h10, h11]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
